-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x768x256 : Shape := ⟨3, ![2, 768, 256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S2x768x256 : S_.BroadcastsInDim S2x768x256 (![] : Fin 0 → Fin S2x768x256.rank)
  reducesTo_S2x768x256_S_d0_1_2 : S2x768x256.ReducesTo [0, 1, 2] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1x64 .f32) (main_arg8 : FVec F S1 .f32) (main_v33 : IVec S_ 1) : IVec S_ 1 :=
  let main_v34 : FVec F S1x64 .f32 := Host.absf main_arg7
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S64 .f32) (main_arg5 : FVec F S64x128 .f32) (main_arg6 : FVec F S64 .f32) (main_arg7 : FVec F S1x64 .f32) (main_arg8 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg5
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S2x768x256 .f32) (main_arg1 : FVec F S128x256 .f32) (main_arg2 : FVec F S128 .f32) (main_arg3 : FVec F S64x128 .f32) (main_arg4 : FVec F S64 .f32) (main_arg5 : FVec F S64x128 .f32) (main_arg6 : FVec F S64 .f32) (main_arg7 : FVec F S1x64 .f32) (main_arg8 : FVec F S1 .f32) : IVec S_ 1 :=
  let main_v0 : FVec F S2x768x256 .f32 := Host.absf main_arg0
  let main_cst : FVec F S_ .f32 := constant S_ .f32 0x7F800000#32
  let main_v1 : FVec F S2x768x256 .f32 := broadcastInDim S2x768x256 ![] bcast_S_S2x768x256 main_cst
  let main_v2 : IVec S2x768x256 1 := cmpf .olt main_v0 main_v1
  let main_c : IVec S_ 1 := constantI S_ 1 1#1
  let main_v3 : IVec S_ 1 := (fun x v => Host.reduce IntOp.andi x v reducesTo_S2x768x256_S_d0_1_2 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_arg7 main_arg8 main_v13 main_v16
-- ==== Kernel.lean ====
abbrev S2x768x256 : Shape := ⟨3, ![2, 768, 256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S64x64 : Shape := ⟨2, ![64, 64]⟩
abbrev S2x768x64 : Shape := ⟨3, ![2, 768, 64]⟩
abbrev S1x768x256 : Shape := ⟨3, ![1, 768, 256]⟩
abbrev S1x768x64 : Shape := ⟨3, ![1, 768, 64]⟩
abbrev S768x256 : Shape := ⟨2, ![768, 256]⟩
abbrev S256x128 : Shape := ⟨2, ![256, 128]⟩
abbrev S768x128 : Shape := ⟨2, ![768, 128]⟩
abbrev S1x128 : Shape := ⟨2, ![1, 128]⟩
abbrev S128x64 : Shape := ⟨2, ![128, 64]⟩
abbrev S768x64 : Shape := ⟨2, ![768, 64]⟩
abbrev S2x768x768 : Shape := ⟨3, ![2, 768, 768]⟩
abbrev S1x128x64 : Shape := ⟨3, ![1, 128, 64]⟩
abbrev S1x128x768 : Shape := ⟨3, ![1, 128, 768]⟩
abbrev S128x1x64 : Shape := ⟨3, ![128, 1, 64]⟩
abbrev S128x768x64 : Shape := ⟨3, ![128, 768, 64]⟩
abbrev S1x1x64 : Shape := ⟨3, ![1, 1, 64]⟩
abbrev S128x768 : Shape := ⟨2, ![128, 768]⟩

abbrev nBuf : Space → Nat
  | .hbm => 14
  | .vmem => 21
  | .smem => 0
  | _ => 0

abbrev bufTy : (tb : Table) → Fin (tcTables nBuf tb) → BufTy
  | .hbm, ⟨0, _⟩ => ⟨S2x768x256, .f32⟩
  | .hbm, ⟨1, _⟩ => ⟨S128x256, .f32⟩
  | .hbm, ⟨2, _⟩ => ⟨S128, .f32⟩
  | .hbm, ⟨3, _⟩ => ⟨S64x128, .f32⟩
  | .hbm, ⟨4, _⟩ => ⟨S64, .f32⟩
  | .hbm, ⟨5, _⟩ => ⟨S64x128, .f32⟩
  | .hbm, ⟨6, _⟩ => ⟨S64, .f32⟩
  | .hbm, ⟨7, _⟩ => ⟨S1x64, .f32⟩
  | .hbm, ⟨8, _⟩ => ⟨S1, .f32⟩
  | .hbm, ⟨9, _⟩ => ⟨S64x64, .f32⟩
  | .hbm, ⟨10, _⟩ => ⟨S64x64, .f32⟩
  | .hbm, ⟨11, _⟩ => ⟨S2x768x64, .f32⟩
  | .hbm, ⟨12, _⟩ => ⟨S2x768x64, .f32⟩
  | .hbm, ⟨13, _⟩ => ⟨S2x768x768, .f32⟩
  | .local _ .vmem, ⟨0, _⟩ => ⟨S1x768x256, .f32⟩
  | .local _ .vmem, ⟨1, _⟩ => ⟨S1x768x256, .f32⟩
  | .local _ .vmem, ⟨2, _⟩ => ⟨S128x256, .f32⟩
  | .local _ .vmem, ⟨3, _⟩ => ⟨S128, .f32⟩
  | .local _ .vmem, ⟨4, _⟩ => ⟨S64x128, .f32⟩
  | .local _ .vmem, ⟨5, _⟩ => ⟨S64, .f32⟩
  | .local _ .vmem, ⟨6, _⟩ => ⟨S64x64, .f32⟩
  | .local _ .vmem, ⟨7, _⟩ => ⟨S64x64, .f32⟩
  | .local _ .vmem, ⟨8, _⟩ => ⟨S1x768x64, .f32⟩
  | .local _ .vmem, ⟨9, _⟩ => ⟨S1x768x64, .f32⟩
  | .local _ .vmem, ⟨10, _⟩ => ⟨S1x768x64, .f32⟩
  | .local _ .vmem, ⟨11, _⟩ => ⟨S1x768x64, .f32⟩
  | .local _ .vmem, ⟨12, _⟩ => ⟨S1x128x64, .f32⟩
  | .local _ .vmem, ⟨13, _⟩ => ⟨S1x128x64, .f32⟩
  | .local _ .vmem, ⟨14, _⟩ => ⟨S1x768x64, .f32⟩
  | .local _ .vmem, ⟨15, _⟩ => ⟨S1x768x64, .f32⟩
  | .local _ .vmem, ⟨16, _⟩ => ⟨S64, .f32⟩
  | .local _ .vmem, ⟨17, _⟩ => ⟨S1x64, .f32⟩
  | .local _ .vmem, ⟨18, _⟩ => ⟨S1, .f32⟩
  | .local _ .vmem, ⟨19, _⟩ => ⟨S1x128x768, .f32⟩
  | .local _ .vmem, ⟨20, _⟩ => ⟨S1x128x768, .f32⟩
  | _, _ => ⟨S2x768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x768x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x768x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x768x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![2, 6], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x768x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x128x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  slices_S64x128_S64x64_0_0 : S64x128.Slices ![0, 0] S64x64
  slices_S64x128_S64x64_0_64 : S64x128.Slices ![0, 64] S64x64
  inb_S1x768x256_S1x768x256_0_0_0 : ∀ a, (![0, 0, 0] : Fin 3 → Nat) a + S1x768x256.size a ≤ S1x768x256.size a
  h_S1x768x256 : 0 < S1x768x256.numel
  shapeCasts_S1x768x256_S768x256 : S1x768x256.ShapeCasts S768x256
  inb_S128x256_S128x256_0_0 : ∀ a, (![0, 0] : Fin 2 → Nat) a + S128x256.size a ≤ S128x256.size a
  h_S128x256 : 0 < S128x256.numel
  inb_S128_S128_0 : ∀ a, (![0] : Fin 1 → Nat) a + S128.size a ≤ S128.size a
  h_S128 : 0 < S128.numel
  inb_S64x128_S64x128_0_0 : ∀ a, (![0, 0] : Fin 2 → Nat) a + S64x128.size a ≤ S64x128.size a
  h_S64x128 : 0 < S64x128.numel
  inb_S64_S64_0 : ∀ a, (![0] : Fin 1 → Nat) a + S64.size a ≤ S64.size a
  h_S64 : 0 < S64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  transposes_S128x256_p1_0_S256x128 : S128x256.Transposes [1, 0] S256x128
  shapeCasts_S128_S1x128 : S128.ShapeCasts S1x128
  broadcasts_S1x128_S768x128 : S1x128.Broadcasts S768x128
  transposes_S64x128_p1_0_S128x64 : S64x128.Transposes [1, 0] S128x64
  shapeCasts_S64_S1x64 : S64.ShapeCasts S1x64
  broadcasts_S1x64_S768x64 : S1x64.Broadcasts S768x64
  transposes_S64x64_p1_0_S64x64 : S64x64.Transposes [1, 0] S64x64
  inb_S1x768x64_S1x768x64_0_0_0 : ∀ a, (![0, 0, 0] : Fin 3 → Nat) a + S1x768x64.size a ≤ S1x768x64.size a
  h_S1x768x64 : 0 < S1x768x64.numel
  shapeCasts_S1x768x64_S768x64 : S1x768x64.ShapeCasts S768x64
  shapeCasts_S768x64_S1x768x64 : S768x64.ShapeCasts S1x768x64
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  inb_S1x64_S1x64_0_0 : ∀ a, (![0, 0] : Fin 2 → Nat) a + S1x64.size a ≤ S1x64.size a
  h_S1x64 : 0 < S1x64.numel
  inb_S1_S1_0 : ∀ a, (![0] : Fin 1 → Nat) a + S1.size a ≤ S1.size a
  h_S1 : 0 < S1.numel
  shapeCasts_S128x64_S128x1x64 : S128x64.ShapeCasts S128x1x64
  broadcasts_S128x1x64_S128x768x64 : S128x1x64.Broadcasts S128x768x64
  broadcasts_S1x768x64_S128x768x64 : S1x768x64.Broadcasts S128x768x64
  shapeCasts_S64_S1x1x64 : S64.ShapeCasts S1x1x64
  broadcasts_S1x1x64_S128x768x64 : S1x1x64.Broadcasts S128x768x64
  shapeCasts_S1x64_S64 : S1x64.ShapeCasts S64
  reduces_S128x768x64_S128x768 : S128x768x64.Reduces [2] S128x768
  inpos_S1_p0 : ∀ a, (![0] : Fin 1 → Nat) a < S1.size a
  inb_S1x128x768_S1x128x768_0_0_0 : ∀ a, (![0, 0, 0] : Fin 3 → Nat) a + S1x128x768.size a ≤ S1x128x768.size a
  h_S1x128x768 : 0 < S1x128x768.numel
  shapeCasts_S1x128x768_S128x768 : S1x128x768.ShapeCasts S128x768
  shapeCasts_S128x768_S1x128x768 : S128x768.ShapeCasts S1x128x768
  dot_S768x256_S256x128_S768x128_1_0_0_1_n_n_wf : DotDims.WF S768x256 S256x128 S768x128 [1] [0] [0] [1] [] []
  dot_S768x128_S128x64_S768x64_1_0_0_1_n_n_wf : DotDims.WF S768x128 S128x64 S768x64 [1] [0] [0] [1] [] []
  dot_S768x64_S64x64_S768x64_1_0_0_1_n_n_wf : DotDims.WF S768x64 S64x64 S768x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x768x256.size a ≤ S2x768x256.size a
  hwx0_0 : ∀ i : grid0.Coords, EltTy.bits .f32 = 32 ∨ (Rect.block (s := S2x768x256) S1x768x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x768x64.size a ≤ S2x768x64.size a
  hwx0_7 : ∀ i : grid0.Coords, EltTy.bits .f32 = 32 ∨ (Rect.block (s := S2x768x64) S1x768x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x768x64.size a ≤ S2x768x64.size a
  hwx0_8 : ∀ i : grid0.Coords, EltTy.bits .f32 = 32 ∨ (Rect.block (s := S2x768x64) S1x768x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x64.size a ≤ S2x768x64.size a
  hwx1_0 : ∀ i : grid1.Coords, EltTy.bits .f32 = 32 ∨ (Rect.block (s := S2x768x64) S1x128x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x768x64.size a ≤ S2x768x64.size a
  hwx1_1 : ∀ i : grid1.Coords, EltTy.bits .f32 = 32 ∨ (Rect.block (s := S2x768x64) S1x768x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1.size a ≤ S1.size a
  hwx1_4 : ∀ i : grid1.Coords, EltTy.bits .f32 = 32 ∨ (Rect.block (s := S1) S1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128x768.size a ≤ S2x768x768.size a
  hwx1_5 : ∀ i : grid1.Coords, EltTy.bits .f32 = 32 ∨ (Rect.block (s := S2x768x768) S1x128x768.size (cc1_transform_5 i) (hinb1_5 i)).WholeWords (EltTy.packing .f32)

variable [Facts₀]

def dot_S768x256_S256x128_S768x128_1_0_0_1_n_n : DotDims S768x256 S256x128 S768x128 where
  lhsContracting := [1]
  rhsContracting := [0]
  lhsNonContracting := [0]
  rhsNonContracting := [1]
  lhsBatch := []
  rhsBatch := []
  wf := dot_S768x256_S256x128_S768x128_1_0_0_1_n_n_wf
def dot_S768x128_S128x64_S768x64_1_0_0_1_n_n : DotDims S768x128 S128x64 S768x64 where
  lhsContracting := [1]
  rhsContracting := [0]
  lhsNonContracting := [0]
  rhsNonContracting := [1]
  lhsBatch := []
  rhsBatch := []
  wf := dot_S768x128_S128x64_S768x64_1_0_0_1_n_n_wf
def dot_S768x64_S64x64_S768x64_1_0_0_1_n_n : DotDims S768x64 S64x64 S768x64 where
  lhsContracting := [1]
  rhsContracting := [0]
  lhsNonContracting := [0]
  rhsNonContracting := [1]
  lhsBatch := []
  rhsBatch := []
  wf := dot_S768x64_S64x64_S768x64_1_0_0_1_n_n_wf

abbrev win0_0 : Pipeline.Window sig grid0 :=
  Pipeline.Window.ofSpec (Memref.whole main_arg0) S1x768x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_0) S1x768x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_1) S1x768x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v2_0) S1x128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S1x768x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x128x768.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2x768x256 : Shape := ⟨3, ![2, 768, 256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S2x768x128 : Shape := ⟨3, ![2, 768, 128]⟩
abbrev S1x1x128 : Shape := ⟨3, ![1, 1, 128]⟩
abbrev S_ : Shape := ⟨0, ![]⟩
abbrev S2x768x64 : Shape := ⟨3, ![2, 768, 64]⟩
abbrev S1x1x64 : Shape := ⟨3, ![1, 1, 64]⟩
abbrev S64x64 : Shape := ⟨2, ![64, 64]⟩
abbrev S2x768x1x64 : Shape := ⟨4, ![2, 768, 1, 64]⟩
abbrev S2x1x768x64 : Shape := ⟨4, ![2, 1, 768, 64]⟩
abbrev S2x768x768x64 : Shape := ⟨4, ![2, 768, 768, 64]⟩
abbrev S1x1x1x64 : Shape := ⟨4, ![1, 1, 1, 64]⟩
abbrev S2x768x768x1 : Shape := ⟨4, ![2, 768, 768, 1]⟩
abbrev S1x1x1x1 : Shape := ⟨4, ![1, 1, 1, 1]⟩
abbrev S2x768x768 : Shape := ⟨3, ![2, 768, 768]⟩

abbrev nBuf : Space → Nat
  | .hbm => 56
  | .vmem => 0
  | .smem => 0
  | _ => 0

abbrev bufTy : (tb : Table) → Fin (tcTables nBuf tb) → BufTy
  | .hbm, ⟨0, _⟩ => ⟨S2x768x256, .f32⟩
  | .hbm, ⟨1, _⟩ => ⟨S128x256, .f32⟩
  | .hbm, ⟨2, _⟩ => ⟨S128, .f32⟩
  | .hbm, ⟨3, _⟩ => ⟨S64x128, .f32⟩
  | .hbm, ⟨4, _⟩ => ⟨S64, .f32⟩
  | .hbm, ⟨5, _⟩ => ⟨S64x128, .f32⟩
  | .hbm, ⟨6, _⟩ => ⟨S64, .f32⟩
  | .hbm, ⟨7, _⟩ => ⟨S1x64, .f32⟩
  | .hbm, ⟨8, _⟩ => ⟨S1, .f32⟩
  | .hbm, ⟨9, _⟩ => ⟨S2x768x128, .f32⟩
  | .hbm, ⟨10, _⟩ => ⟨S1x1x128, .f32⟩
  | .hbm, ⟨11, _⟩ => ⟨S2x768x128, .f32⟩
  | .hbm, ⟨12, _⟩ => ⟨S2x768x128, .f32⟩
  | .hbm, ⟨13, _⟩ => ⟨S_, .f32⟩
  | .hbm, ⟨14, _⟩ => ⟨S2x768x128, .f32⟩
  | .hbm, ⟨15, _⟩ => ⟨S2x768x128, .f32⟩
  | .hbm, ⟨16, _⟩ => ⟨S2x768x64, .f32⟩
  | .hbm, ⟨17, _⟩ => ⟨S1x1x64, .f32⟩
  | .hbm, ⟨18, _⟩ => ⟨S2x768x64, .f32⟩
  | .hbm, ⟨19, _⟩ => ⟨S2x768x64, .f32⟩
  | .hbm, ⟨20, _⟩ => ⟨S2x768x64, .f32⟩
  | .hbm, ⟨21, _⟩ => ⟨S2x768x64, .f32⟩
  | .hbm, ⟨22, _⟩ => ⟨S_, .f32⟩
  | .hbm, ⟨23, _⟩ => ⟨S2x768x64, .f32⟩
  | .hbm, ⟨24, _⟩ => ⟨S2x768x64, .f32⟩
  | .hbm, ⟨25, _⟩ => ⟨S_, .f32⟩
  | .hbm, ⟨26, _⟩ => ⟨S2x768x64, .f32⟩
  | .hbm, ⟨27, _⟩ => ⟨S2x768x64, .f32⟩
  | .hbm, ⟨28, _⟩ => ⟨S64x64, .f32⟩
  | .hbm, ⟨29, _⟩ => ⟨S64x64, .f32⟩
  | .hbm, ⟨30, _⟩ => ⟨S2x768x64, .f32⟩
  | .hbm, ⟨31, _⟩ => ⟨S2x768x64, .f32⟩
  | .hbm, ⟨32, _⟩ => ⟨S2x768x1x64, .f32⟩
  | .hbm, ⟨33, _⟩ => ⟨S2x1x768x64, .f32⟩
  | .hbm, ⟨34, _⟩ => ⟨S2x768x768x64, .f32⟩
  | .hbm, ⟨35, _⟩ => ⟨S2x768x768x64, .f32⟩
  | .hbm, ⟨36, _⟩ => ⟨S2x768x768x64, .f32⟩
  | .hbm, ⟨37, _⟩ => ⟨S1x1x1x64, .f32⟩
  | .hbm, ⟨38, _⟩ => ⟨S2x768x768x64, .f32⟩
  | .hbm, ⟨39, _⟩ => ⟨S2x768x768x64, .f32⟩
  | .hbm, ⟨40, _⟩ => ⟨S_, .f32⟩
  | .hbm, ⟨41, _⟩ => ⟨S2x768x768x64, .f32⟩
  | .hbm, ⟨42, _⟩ => ⟨S2x768x768x64, .f32⟩
  | .hbm, ⟨43, _⟩ => ⟨S2x768x768x1, .f32⟩
  | .hbm, ⟨44, _⟩ => ⟨S1x1x1x1, .f32⟩
  | .hbm, ⟨45, _⟩ => ⟨S2x768x768x1, .f32⟩
  | .hbm, ⟨46, _⟩ => ⟨S2x768x768x1, .f32⟩
  | .hbm, ⟨47, _⟩ => ⟨S2x768x768, .f32⟩
  | .hbm, ⟨48, _⟩ => ⟨S2x768x768, .f32⟩
  | .hbm, ⟨49, _⟩ => ⟨S2x768x768, .f32⟩
  | .hbm, ⟨50, _⟩ => ⟨S_, .f32⟩
  | .hbm, ⟨51, _⟩ => ⟨S2x768x768, .f32⟩
  | .hbm, ⟨52, _⟩ => ⟨S2x768x768, .f32⟩
  | .hbm, ⟨53, _⟩ => ⟨S_, .f32⟩
  | .hbm, ⟨54, _⟩ => ⟨S2x768x768, .f32⟩
  | .hbm, ⟨55, _⟩ => ⟨S2x768x768, .f32⟩
  | _, _ => ⟨S2x768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call1_cst : Ref sig .tc := ⟨.hbm, 40, rfl⟩
abbrev main_call1_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_1 : Ref sig .tc := ⟨.hbm, 50, rfl⟩
abbrev main_v35 : Ref sig .tc := ⟨.hbm, 51, rfl⟩
abbrev main_v36 : Ref sig .tc := ⟨.hbm, 52, rfl⟩
abbrev main_cst_2 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S2x768x128_0_1_2 : S1x1x128.BroadcastsInDim S2x768x128 (![0, 1, 2] : Fin 3 → Fin S2x768x128.rank)
  bcast_S_S2x768x128 : S_.BroadcastsInDim S2x768x128 (![] : Fin 0 → Fin S2x768x128.rank)
  bcast_S64_S1x1x64_2 : S64.BroadcastsInDim S1x1x64 (![2] : Fin 1 → Fin S1x1x64.rank)
  bcast_S1x1x64_S2x768x64_0_1_2 : S1x1x64.BroadcastsInDim S2x768x64 (![0, 1, 2] : Fin 3 → Fin S2x768x64.rank)
  bcast_S_S2x768x64 : S_.BroadcastsInDim S2x768x64 (![] : Fin 0 → Fin S2x768x64.rank)
  slices_S64x128_S64x64_0_0 : S64x128.Slices ![0, 0] S64x64
  slices_S64x128_S64x64_0_64 : S64x128.Slices ![0, 64] S64x64
  bcast_S2x768x64_S2x768x1x64_0_1_3 : S2x768x64.BroadcastsInDim S2x768x1x64 (![0, 1, 3] : Fin 3 → Fin S2x768x1x64.rank)
  bcast_S2x768x64_S2x1x768x64_0_2_3 : S2x768x64.BroadcastsInDim S2x1x768x64 (![0, 2, 3] : Fin 3 → Fin S2x1x768x64.rank)
  bcast_S2x768x1x64_S2x768x768x64_0_1_2_3 : S2x768x1x64.BroadcastsInDim S2x768x768x64 (![0, 1, 2, 3] : Fin 4 → Fin S2x768x768x64.rank)
  bcast_S2x1x768x64_S2x768x768x64_0_1_2_3 : S2x1x768x64.BroadcastsInDim S2x768x768x64 (![0, 1, 2, 3] : Fin 4 → Fin S2x768x768x64.rank)
  bcast_S64_S1x1x1x64_3 : S64.BroadcastsInDim S1x1x1x64 (![3] : Fin 1 → Fin S1x1x1x64.rank)
  bcast_S1x1x1x64_S2x768x768x64_0_1_2_3 : S1x1x1x64.BroadcastsInDim S2x768x768x64 (![0, 1, 2, 3] : Fin 4 → Fin S2x768x768x64.rank)
  bcast_S_S2x768x768x64 : S_.BroadcastsInDim S2x768x768x64 (![] : Fin 0 → Fin S2x768x768x64.rank)
  bcast_S1_S1x1x1x1_3 : S1.BroadcastsInDim S1x1x1x1 (![3] : Fin 1 → Fin S1x1x1x1.rank)
  bcast_S1x1x1x1_S2x768x768x1_0_1_2_3 : S1x1x1x1.BroadcastsInDim S2x768x768x1 (![0, 1, 2, 3] : Fin 4 → Fin S2x768x768x1.rank)
  shapeCasts_S2x768x768x1_S2x768x768 : S2x768x768x1.ShapeCasts S2x768x768
  bcast_S_S2x768x768 : S_.BroadcastsInDim S2x768x768 (![] : Fin 0 → Fin S2x768x768.rank)
  dot_S2x768x256_S128x256_S2x768x128_2_1_01_0_n_n_wf : DotDims.WF S2x768x256 S128x256 S2x768x128 [2] [1] [0, 1] [0] [] []
  dot_S2x768x128_S64x128_S2x768x64_2_1_01_0_n_n_wf : DotDims.WF S2x768x128 S64x128 S2x768x64 [2] [1] [0, 1] [0] [] []
  dot_S2x768x64_S64x64_S2x768x64_2_1_01_0_n_n_wf : DotDims.WF S2x768x64 S64x64 S2x768x64 [2] [1] [0, 1] [0] [] []
  dot_S2x768x768x64_S1x64_S2x768x768x1_3_1_012_0_n_n_wf : DotDims.WF S2x768x768x64 S1x64 S2x768x768x1 [3] [1] [0, 1, 2] [0] [] []

variable [Facts₀]

def dot_S2x768x256_S128x256_S2x768x128_2_1_01_0_n_n : DotDims S2x768x256 S128x256 S2x768x128 where
  lhsContracting := [2]
  rhsContracting := [1]
  lhsNonContracting := [0, 1]
  rhsNonContracting := [0]
  lhsBatch := []
  rhsBatch := []
  wf := dot_S2x768x256_S128x256_S2x768x128_2_1_01_0_n_n_wf
def dot_S2x768x128_S64x128_S2x768x64_2_1_01_0_n_n : DotDims S2x768x128 S64x128 S2x768x64 where
  lhsContracting := [2]
  rhsContracting := [1]
  lhsNonContracting := [0, 1]
  rhsNonContracting := [0]
  lhsBatch := []
  rhsBatch := []
  wf := dot_S2x768x128_S64x128_S2x768x64_2_1_01_0_n_n_wf
def dot_S2x768x64_S64x64_S2x768x64_2_1_01_0_n_n : DotDims S2x768x64 S64x64 S2x768x64 where
  lhsContracting := [2]
  rhsContracting := [1]
  lhsNonContracting := [0, 1]
  rhsNonContracting := [0]
  lhsBatch := []
  rhsBatch := []
  wf := dot_S2x768x64_S64x64_S2x768x64_2_1_01_0_n_n_wf
def dot_S2x768x768x64_S1x64_S2x768x768x1_3_1_012_0_n_n : DotDims S2x768x768x64 S1x64 S2x768x768x1 where
  lhsContracting := [3]
  rhsContracting := [1]
  lhsNonContracting := [0, 1, 2]
  rhsNonContracting := [0]
  lhsBatch := []
  rhsBatch := []
  wf := dot_S2x768x768x64_S1x64_S2x768x768x1_3_1_012_0_n_n_wf

class Facts : Prop extends Facts₀ where

variable [Facts]
-- ==== Proof.Spec.lean ====
/-
  The mathematics both programs compute, index by index, on the extended reals.

  For one vertex, given as its row of 256 features, the embedding network is
    hidden j = max (∑ k, row k · W₁[j,k] + b₁[j]) 0                      (128 values)
    embed d  = logistic (∑ j, hidden j · W₂[d,j] + b₂[d])                (64 values)
  and a projection by a 64 × 64 matrix W is  proj k = ∑ d, embed d · W[k,d].
  For a pair of vertices (i, j) of one batch, with the two projections' rows r₁ (of i) and r₂ (of j),
    pair = logistic (∑ k, max ((r₁ k + r₂ k) + c₁[k]) 0 · w[0,k] + c₂[0]).
  Sums are finite sums over the contracted coordinate in its natural order; no law of the extended reals beyond
  0 + x = x is needed to join the two programs, since both spell exactly these expressions.
-/
import Idealize.ShloMosaic.PureOps.Ideal
import Idealize.ShloMosaic.Lib.ValueIdx

noncomputable section

namespace Cert.Spec

open Idealize.ShloMosaic Idealize.ShloMosaic.ValueIdx

abbrev Arr1 (a : Nat) : Type := (⟨1, ![a]⟩ : Shape).Idx → EReal
abbrev Arr2 (a b : Nat) : Type := (⟨2, ![a, b]⟩ : Shape).Idx → EReal
abbrev Arr3 (a b c : Nat) : Type := (⟨3, ![a, b, c]⟩ : Shape).Idx → EReal

/-- The first layer at one vertex: a linear map of its feature row, a bias, then the positive part. -/
def hiddenRow (row : Fin 256 → EReal) (w1 : Arr2 128 256) (b1 : Arr1 128) (j : Fin 128) : EReal :=
  max ((∑ k : Fin 256, row k * w1 (ix2 j k)) + b1 (ix1 j)) 0

/-- The second layer at one vertex: a linear map of the hidden values, a bias, then the logistic function. -/
def embedRow (row : Fin 256 → EReal) (w1 : Arr2 128 256) (b1 : Arr1 128) (w2 : Arr2 64 128) (b2 : Arr1 64) (d : Fin 64) : EReal :=
  Ideal.logistic ((∑ j : Fin 128, hiddenRow row w1 b1 j * w2 (ix2 d j)) + b2 (ix1 d))

/-- A projection of one vertex's embedding by the rows of a 64 × 64 matrix. -/
def projRow (row : Fin 256 → EReal) (w1 : Arr2 128 256) (b1 : Arr1 128) (w2 : Arr2 64 128) (b2 : Arr1 64)
    (w : Arr2 64 64) (k : Fin 64) : EReal :=
  ∑ d : Fin 64, embedRow row w1 b1 w2 b2 d * w (ix2 k d)

/-- The projection of every vertex of every batch: entry (b, n, k) is vertex (b, n)'s projection at k. -/
def proj (x : Arr3 2 768 256) (w1 : Arr2 128 256) (b1 : Arr1 128) (w2 : Arr2 64 128) (b2 : Arr1 64)
    (w : Arr2 64 64) : Arr3 2 768 64 :=
  fun i => projRow (fun k => x (ix3 (i 0) (i 1) k)) w1 b1 w2 b2 w (i 2)

/-- The classifier on one pair of vertices, from the two projections' rows. -/
def pairRow (r1 r2 : Fin 64 → EReal) (c1 : Arr1 64) (w : Arr2 1 64) (c2 : Arr1 1) : EReal :=
  Ideal.logistic ((∑ k : Fin 64, max ((r1 k + r2 k) + c1 (ix1 k)) 0 * w (ix2 0 k)) + c2 (ix1 0))

/-- The classifier on every pair of every batch: entry (b, i, j) pairs row (b, i) of the first projection with
    row (b, j) of the second. -/
def pair (p1 p2 : Arr3 2 768 64) (c1 : Arr1 64) (w : Arr2 1 64) (c2 : Arr1 1) : Arr3 2 768 768 :=
  fun y => pairRow (fun k => p1 (ix3 (y 0) (y 1) k)) (fun k => p2 (ix3 (y 0) (y 2) k)) c1 w c2

theorem proj_ix3 (x : Arr3 2 768 256) (w1 : Arr2 128 256) (b1 : Arr1 128) (w2 : Arr2 64 128) (b2 : Arr1 64)
    (w : Arr2 64 64) (b : Fin 2) (n : Fin 768) (k : Fin 64) :
    proj x w1 b1 w2 b2 w (ix3 b n k) = projRow (fun q => x (ix3 b n q)) w1 b1 w2 b2 w k := rfl

theorem pair_ix3 (p1 p2 : Arr3 2 768 64) (c1 : Arr1 64) (w : Arr2 1 64) (c2 : Arr1 1) (b : Fin 2) (i j : Fin 768) :
    pair p1 p2 c1 w c2 (ix3 b i j) = pairRow (fun k => p1 (ix3 b i k)) (fun k => p2 (ix3 b j k)) c1 w c2 := rfl

/-- The projection array at an index whose coordinates are (b, n, k). -/
theorem proj_at (x : Arr3 2 768 256) (w1 : Arr2 128 256) (b1 : Arr1 128) (w2 : Arr2 64 128) (b2 : Arr1 64)
    (w : Arr2 64 64) (y : (⟨3, ![2, 768, 64]⟩ : Shape).Idx) (b : Fin 2) (n : Fin 768) (k : Fin 64)
    (h0 : (y 0).val = b.val) (h1 : (y 1).val = n.val) (h2 : (y 2).val = k.val) :
    proj x w1 b1 w2 b2 w y = projRow (fun q => x (ix3 b n q)) w1 b1 w2 b2 w k := by
  have e : y = ix3 b n k := funext fun a => Fin.ext (match a with | ⟨0, _⟩ => h0 | ⟨1, _⟩ => h1 | ⟨2, _⟩ => h2)
  subst e
  rfl

/-- The classifier array at an index whose coordinates are (b, i, j). -/
theorem pair_at (p1 p2 : Arr3 2 768 64) (c1 : Arr1 64) (w : Arr2 1 64) (c2 : Arr1 1)
    (y : (⟨3, ![2, 768, 768]⟩ : Shape).Idx) (b : Fin 2) (i j : Fin 768)
    (h0 : (y 0).val = b.val) (h1 : (y 1).val = i.val) (h2 : (y 2).val = j.val) :
    pair p1 p2 c1 w c2 y = pairRow (fun k => p1 (ix3 b i k)) (fun k => p2 (ix3 b j k)) c1 w c2 := by
  have e : y = ix3 b i j := funext fun a => Fin.ext (match a with | ⟨0, _⟩ => h0 | ⟨1, _⟩ => h1 | ⟨2, _⟩ => h2)
  subst e
  rfl

theorem projRow_congr {row row' : Fin 256 → EReal} {w1 w1' : Arr2 128 256} {b1 b1' : Arr1 128} {w2 w2' : Arr2 64 128}
    {b2 b2' : Arr1 64} {w w' : Arr2 64 64} (k : Fin 64) (h0 : row = row') (h1 : w1 = w1') (h2 : b1 = b1') (h3 : w2 = w2')
    (h4 : b2 = b2') (h5 : w = w') : projRow row w1 b1 w2 b2 w k = projRow row' w1' b1' w2' b2' w' k := by
  rw [h0, h1, h2, h3, h4, h5]

theorem pairRow_congr {r1 r1' r2 r2' : Fin 64 → EReal} {c1 c1' : Arr1 64} {w w' : Arr2 1 64} {c2 c2' : Arr1 1}
    (h1 : r1 = r1') (h2 : r2 = r2') (h3 : c1 = c1') (h4 : w = w') (h5 : c2 = c2') :
    pairRow r1 r2 c1 w c2 = pairRow r1' r2' c1' w' c2' := by
  rw [h1, h2, h3, h4, h5]

end Cert.Spec

end
-- ==== Proof.PairPayload.lean ====
/-
  The classifier kernel's stored value, read at one entry. The kernel holds a [1,128,64] block of the first projection (rows of
  128 vertices i), the whole [1,768,64] second projection of the same batch (rows of all vertices j), and the vectors c₁, w, c₂; it
  forms the [128,768,64] array max ((p₁[i,k] + p₂[j,k]) + c₁[k]) 0 · w[k], sums it over k, adds c₂ and applies the logistic
  function. Read at (0, i, j) this is the pair classifier of the two rows.
-/
import proofs.«146260_j87136296501639_1_alg».proof.Proof.Gen.KernelIdeal.Skeleton
import proofs.«146260_j87136296501639_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.PairPayload

open Cert.KernelIdeal Cert.KernelIdeal.Gen Idealize.ShloMosaic Idealize.ShloMosaic.ValueIdx

/-- The first projection's block, given a unit middle axis and spread over all j: entry (i, j, k) is row i at k. -/
theorem left_spread (v0 : FVec Ideal S1x128x64 .f32) (i : Fin 128) (j : Fin 768) (k : Fin 64) :
    broadcastTo S128x768x64 (shapeCast S128x1x64 (shapeCast S128x64 v0 shapeCasts_S1x128x64_S128x64) shapeCasts_S128x64_S128x1x64)
      broadcasts_S128x1x64_S128x768x64 (ix3 i j k) = v0 (ix3 0 i k) := by
  refine (broadcastTo_apply _ _ (ix3 i j k) (ix3 i 0 k) (fun a => match a with
    | ⟨0, _⟩ => by show i.val = if (128 : Nat) = 1 then 0 else i.val; rw [if_neg (by decide)]
    | ⟨1, _⟩ => by show (0 : Nat) = if (1 : Nat) = 1 then 0 else j.val; rw [if_pos rfl]
    | ⟨2, _⟩ => by show k.val = if (64 : Nat) = 1 then 0 else k.val; rw [if_neg (by decide)])).trans ?_
  refine (shapeCast_apply _ _ (ix3 i 0 k) (ix2 i k) (by
    rw [Shape.rowMajor_val_two, Shape.rowMajor_val_three]
    show i.val * 64 + k.val = (i.val * 1 + 0) * 64 + k.val
    omega)).trans ?_
  exact shapeCast_apply _ _ (ix2 i k) (ix3 0 i k) (by
    rw [Shape.rowMajor_val_two, Shape.rowMajor_val_three]
    show (0 * 128 + i.val) * 64 + k.val = i.val * 64 + k.val
    omega)

/-- The second projection, spread over all i: entry (i, j, k) is row j at k. -/
theorem right_spread (v2 : FVec Ideal S1x768x64 .f32) (i : Fin 128) (j : Fin 768) (k : Fin 64) :
    broadcastTo S128x768x64 (shapeCast S1x768x64 (shapeCast S768x64 v2 shapeCasts_S1x768x64_S768x64) shapeCasts_S768x64_S1x768x64)
      broadcasts_S1x768x64_S128x768x64 (ix3 i j k) = v2 (ix3 0 j k) := by
  rw [shapeCast_shapeCast]
  exact broadcastTo_apply _ _ (ix3 i j k) (ix3 0 j k) (fun a => match a with
    | ⟨0, _⟩ => by show (0 : Nat) = if (1 : Nat) = 1 then 0 else i.val; rw [if_pos rfl]
    | ⟨1, _⟩ => by show j.val = if (768 : Nat) = 1 then 0 else j.val; rw [if_neg (by decide)]
    | ⟨2, _⟩ => by show k.val = if (64 : Nat) = 1 then 0 else k.val; rw [if_neg (by decide)])

/-- A vector of 64 spread over all (i, j): entry (i, j, k) is its entry k. -/
theorem vec_spread (v4 : FVec Ideal S64 .f32) (i : Fin 128) (j : Fin 768) (k : Fin 64) :
    broadcastTo S128x768x64 (shapeCast S1x1x64 v4 shapeCasts_S64_S1x1x64) broadcasts_S1x1x64_S128x768x64 (ix3 i j k) = v4 (ix1 k) := by
  refine (broadcastTo_apply _ _ (ix3 i j k) (ix3 0 0 k) (fun a => match a with
    | ⟨0, _⟩ => by show (0 : Nat) = if (1 : Nat) = 1 then 0 else i.val; rw [if_pos rfl]
    | ⟨1, _⟩ => by show (0 : Nat) = if (1 : Nat) = 1 then 0 else j.val; rw [if_pos rfl]
    | ⟨2, _⟩ => by show k.val = if (64 : Nat) = 1 then 0 else k.val; rw [if_neg (by decide)])).trans ?_
  exact shapeCast_apply _ _ (ix3 0 0 k) (ix1 k) (by
    rw [Shape.rowMajor_val_one, Shape.rowMajor_val_three]
    show k.val = (0 * 1 + 0) * 64 + k.val
    omega)

/-- The [1,64] weight row viewed as a vector of 64: entry k is its entry (0, k). -/
theorem row_as_vec (v5 : FVec Ideal S1x64 .f32) (k : Fin 64) :
    shapeCast S64 v5 shapeCasts_S1x64_S64 (ix1 k) = v5 (ix2 0 k) :=
  shapeCast_apply _ _ (ix1 k) (ix2 0 k) (by
    rw [Shape.rowMajor_val_one, Shape.rowMajor_val_two]
    show 0 * 64 + k.val = k.val
    omega)

/-- The one entry of a vector of length one. -/
theorem only_entry (v6 : FVec Ideal S1 .f32) : extractAt ![0] v6 inpos_S1_p0 = v6 (ix1 0) := by
  unfold extractAt
  exact congrArg v6 (funext fun a => match a with | ⟨0, _⟩ => rfl)

/-- The lane sum of a [128,768,64] array at (i, j): the sum over k of its entries (i, j, k). -/
theorem lane_sum (src : FVec Ideal S128x768x64 .f32) (hφ : FKind.Formats .f32)
    (hacc : (0x00000000#32 : BitVec 32) = FKind.add.neutral .f32 hφ) (i : Fin 128) (j : Fin 768) :
    multiReduction .add [2] S128x768 src 0x00000000#32 reduces_S128x768x64_S128x768 hφ hacc (ix2 i j)
      = ∑ k : Fin 64, src (ix3 i j k) := by
  refine (Ideal.multiReduction_add_single src 0x00000000#32 reduces_S128x768x64_S128x768 hφ hacc (ix2 i j)).trans ?_
  refine Finset.sum_congr rfl fun k _ => congrArg src (funext fun a => Fin.ext ?_)
  match a with
  | ⟨0, _⟩ => rfl
  | ⟨1, _⟩ => rfl
  | ⟨2, _⟩ => rfl

/-- What the kernel stores at (0, i, j) is the pair classifier of row i of its first block and row j of its second. -/
theorem stored_at (v0 : FVec Ideal S1x128x64 .f32) (v2 : FVec Ideal S1x768x64 .f32) (v4 : FVec Ideal S64 .f32)
    (v5 : FVec Ideal S1x64 .f32) (v6 : FVec Ideal S1 .f32) (i : Fin 128) (j : Fin 768) :
    k1_pay1 (F := Ideal) v0 v2 v4 v5 v6 (ix3 0 i j)
      = Cert.Spec.pairRow (fun k => v0 (ix3 0 i k)) (fun k => v2 (ix3 0 j k)) v4 v5 v6 := by
  unfold k1_pay1
  dsimp only
  refine (shapeCast_apply _ _ (ix3 0 i j) (ix2 i j) (by
    rw [Shape.rowMajor_val_two, Shape.rowMajor_val_three]
    show i.val * 768 + j.val = (0 * 128 + i.val) * 768 + j.val
    omega)).trans ?_
  unfold Cert.Spec.pairRow
  refine congrArg Ideal.logistic ?_
  refine congrArg₂ (· + ·) ((lane_sum _ _ _ i j).trans ?_) (only_entry v6)
  refine Finset.sum_congr rfl fun k _ => ?_
  simp only [mulf_apply, maximumf_apply, addf_apply, broadcast_apply, left_spread, right_spread, vec_spread, row_as_vec,
    Ideal.ofBits_def, Ideal.ofBits_zero_f32]

end Cert.KernelIdeal.PairPayload

end
-- ==== Proof.PairRegion.lean ====
/-
  The classifier region's result array. The region runs over the grid of (batch b, row tile i); at a point it fetches rows
  128·i … 128·i+127 of batch b of the first projection, all rows of batch b of the second, and the three small vectors whole, and writes
  back rows 128·i … of batch b of the result. What a point writes back is its block of ONE array, the pair classifier of the two
  projections as the region finds them; the twelve blocks tile the result, so after the region the result array is that array.
-/
import proofs.«146260_j87136296501639_1_alg».proof.Proof.Gen.KernelIdeal.Frame
import proofs.«146260_j87136296501639_1_alg».proof.Proof.PairPayload
import Idealize.ShloMosaic.Lib.Pipeline.Value

set_option maxRecDepth 16384

noncomputable section

namespace Cert.KernelIdeal.PairRegion

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The block indices at a point: the first projection's block moves with the result's on the batch and row-tile axes, the second
    projection's on the batch axis only, the small vectors have one block; the result's block indices range over 2 × 6 × 1. -/
theorem index_facts : ∀ t : Fin cfg1.N,
    win1_0.index t (0 : Fin 3) = win1_5.index t (0 : Fin 3)
    ∧ win1_0.index t (1 : Fin 3) = win1_5.index t (1 : Fin 3)
    ∧ win1_0.index t (2 : Fin 3) = 0
    ∧ win1_1.index t (0 : Fin 3) = win1_5.index t (0 : Fin 3)
    ∧ win1_1.index t (1 : Fin 3) = 0
    ∧ win1_1.index t (2 : Fin 3) = 0
    ∧ win1_2.index t (0 : Fin 1) = 0
    ∧ win1_3.index t (0 : Fin 2) = 0
    ∧ win1_3.index t (1 : Fin 2) = 0
    ∧ win1_4.index t (0 : Fin 1) = 0
    ∧ win1_5.index t (0 : Fin 3) ≤ 1
    ∧ win1_5.index t (1 : Fin 3) ≤ 5
    ∧ win1_5.index t (2 : Fin 3) = 0 :=
  (by decide +kernel : ∀ t : Fin grid1.N, _)

/-- Every block of the result is some point's. -/
theorem index_onto : ∀ (q0 : Fin 2) (q1 : Fin 6), ∃ t : Fin cfg1.N, win1_5.index t = ![q0.val, q1.val, 0] :=
  (by decide +kernel : ∀ (q0 : Fin 2) (q1 : Fin 6), ∃ t : Fin grid1.N, win1_5.index t = ![q0.val, q1.val, 0])

/-- What point t writes back is block t of the pair classifier of the two projections as the region finds them. -/
theorem flushed_eq (c : Dev nD) (t : Fin cfg1.N) :
    (dat1 V c).flushed 5 t = ((cfg1.win 5).blk t).view.read (Elt Ideal)
      (Cert.Spec.pair (V c main_v2_0) (V c main_v2_1) (V c main_arg6) (V c main_arg7) (V c main_arg8)) := by
  show (cfg1.win 5).cut (grid1.coords t) ((dat1 V c).after 5 t) = _
  rw [after1_5]
  unfold out1_5
  rw [View.canon_unit_zero zeros3]
  simp only [View.ld_unit_zero (S := S1x128x64) zeros3, View.ld_unit_zero (S := S1x768x64) zeros3,
    View.ld_unit_zero (S := S64) zeros1, View.ld_unit_zero (S := S1x64) zeros2, View.ld_unit_zero (S := S1) zeros1]
  obtain ⟨e0, e1, e2, e3, e4, e5, e6, e7, e8, e9, e10, e11, e12⟩ := index_facts t
  refine funext fun (y : S1x128x768.Idx) => ?_
  obtain ⟨y0, i, j, rfl⟩ : ∃ (y0 : Fin 1) (i : Fin 128) (j : Fin 768), y = ix3 y0 i j := ⟨y 0, y 1, y 2, eq_ix3 y⟩
  obtain rfl : y0 = 0 := Fin.ext (by have := y0.isLt; omega)
  have hi : i.val < 128 := i.isLt
  show k1_pay1 (F := Ideal) (iblk1 V c 0 t) (iblk1 V c 1 t) (iblk1 V c 2 t) (iblk1 V c 3 t) (iblk1 V c 4 t) (ix3 0 i j)
    = Cert.Spec.pair (V c main_v2_0) (V c main_v2_1) (V c main_arg6) (V c main_arg7) (V c main_arg8)
        (((cfg1.win 5).blk t).view.emb (ix3 0 i j))
  refine (PairPayload.stored_at (iblk1 V c 0 t) (iblk1 V c 1 t) (iblk1 V c 2 t) (iblk1 V c 3 t) (iblk1 V c 4 t) i j).trans ?_
  refine Eq.trans ?_ (Cert.Spec.pair_at _ _ _ _ _ _ ⟨win1_5.index t (0 : Fin 3), by omega⟩
    ⟨win1_5.index t (1 : Fin 3) * 128 + i.val, by omega⟩ j
    (by show win1_5.index t (0 : Fin 3) * 1 + 1 * 0 = win1_5.index t (0 : Fin 3); omega)
    (by show win1_5.index t (1 : Fin 3) * 128 + 1 * i.val = win1_5.index t (1 : Fin 3) * 128 + i.val; omega)
    (by show win1_5.index t (2 : Fin 3) * 768 + 1 * j.val = j.val; omega)).symm
  refine Cert.Spec.pairRow_congr ?_ ?_ ?_ ?_ ?_
  · refine funext fun k => ?_
    show V c main_v2_0 (((cfg1.win 0).blk t).view.emb (ix3 0 i k)) = _
    refine congrArg (V c main_v2_0) (funext fun a => Fin.ext ?_)
    match a with
    | ⟨0, _⟩ => show win1_0.index t (0 : Fin 3) * 1 + 1 * 0 = win1_5.index t (0 : Fin 3); omega
    | ⟨1, _⟩ => show win1_0.index t (1 : Fin 3) * 128 + 1 * i.val = win1_5.index t (1 : Fin 3) * 128 + i.val; omega
    | ⟨2, _⟩ => show win1_0.index t (2 : Fin 3) * 64 + 1 * k.val = k.val; omega
  · refine funext fun k => ?_
    show V c main_v2_1 (((cfg1.win 1).blk t).view.emb (ix3 0 j k)) = _
    refine congrArg (V c main_v2_1) (funext fun a => Fin.ext ?_)
    match a with
    | ⟨0, _⟩ => show win1_1.index t (0 : Fin 3) * 1 + 1 * 0 = win1_5.index t (0 : Fin 3); omega
    | ⟨1, _⟩ => show win1_1.index t (1 : Fin 3) * 768 + 1 * j.val = j.val; omega
    | ⟨2, _⟩ => show win1_1.index t (2 : Fin 3) * 64 + 1 * k.val = k.val; omega
  · refine funext fun (x : S64.Idx) => ?_
    show V c main_arg6 (((cfg1.win 2).blk t).view.emb x) = V c main_arg6 x
    refine congrArg (V c main_arg6) (funext fun a => Fin.ext ?_)
    match a with
    | ⟨0, _⟩ => show win1_2.index t (0 : Fin 1) * 64 + 1 * (x 0).val = (x 0).val; omega
  · refine funext fun (x : S1x64.Idx) => ?_
    show V c main_arg7 (((cfg1.win 3).blk t).view.emb x) = V c main_arg7 x
    refine congrArg (V c main_arg7) (funext fun a => Fin.ext ?_)
    match a with
    | ⟨0, _⟩ => show win1_3.index t (0 : Fin 2) * 1 + 1 * (x 0).val = (x 0).val; omega
    | ⟨1, _⟩ => show win1_3.index t (1 : Fin 2) * 64 + 1 * (x 1).val = (x 1).val; omega
  · refine funext fun (x : S1.Idx) => ?_
    show V c main_arg8 (((cfg1.win 4).blk t).view.emb x) = V c main_arg8 x
    refine congrArg (V c main_arg8) (funext fun a => Fin.ext ?_)
    match a with
    | ⟨0, _⟩ => show win1_4.index t (0 : Fin 1) * 1 + 1 * (x 0).val = (x 0).val; omega

/-- An index of the result array is in point t's block iff each coordinate is in the block's range on its axis. -/
theorem mem_blk (t : Fin cfg1.N) (i : S2x768x768.Idx) :
    i ∈ ((cfg1.win 5).blk t).view.set ↔ ∀ a : Fin 3, win1_5.index t a * S1x128x768.size a ≤ (i a).val
      ∧ (i a).val < win1_5.index t a * S1x128x768.size a + S1x128x768.size a := by
  show i ∈ ((View.whole main_v3).slice (win1_5.rect t)).set ↔ _
  rw [View.set_slice_whole, Rect.mem_set_unit]
  exact Iff.rfl

/-- Every index of the result array is in some point's block: batch i₀, row tile i₁ / 128. -/
theorem covered (i : S2x768x768.Idx) :
    ∃ t : Fin cfg1.N, (cfg1.win 5).flush t = true ∧ i ∈ ((cfg1.win 5).blk t).view.set := by
  have hi0 : (i 0).val < 2 := (i 0).isLt
  have hi1 : (i 1).val < 768 := (i 1).isLt
  have hi2 : (i 2).val < 768 := (i 2).isLt
  obtain ⟨t, ht⟩ := index_onto ⟨(i 0).val, hi0⟩ ⟨(i 1).val / 128, by omega⟩
  have q0 : win1_5.index t (0 : Fin 3) = (i 0).val := congrFun ht 0
  have q1 : win1_5.index t (1 : Fin 3) = (i 1).val / 128 := congrFun ht 1
  have q2 : win1_5.index t (2 : Fin 3) = 0 := congrFun ht 2
  refine ⟨t, flush1_5 t, ?_⟩
  rw [mem_blk]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 128 ≤ (i 1).val ∧ (i 1).val < win1_5.index t (1 : Fin 3) * 128 + 128; omega
  | ⟨2, _⟩ => show win1_5.index t (2 : Fin 3) * 768 ≤ (i 2).val ∧ (i 2).val < win1_5.index t (2 : Fin 3) * 768 + 768; omega

/-- After the region the result array is the pair classifier of the two projections as the region found them. -/
theorem result_array (c : Dev nD) :
    (dat1 V c).arrAt 5 cfg1.N
      = Cert.Spec.pair (V c main_v2_0) (V c main_v2_1) (V c main_arg6) (V c main_arg7) (V c main_arg8) :=
  (dat1 V c).arrAt_eq_of_cover 5 _ (fun t _ => flushed_eq V c t) covered

end Cert.KernelIdeal.PairRegion

end
-- ==== Proof.EmbedPayload.lean ====
/-
  The embedding kernel's stored values, read at one entry. For one batch the kernel holds the [1,768,256] block of vertex features and the
  weights; it computes hidden = max (x · W₁ᵀ + b₁) 0, embed = logistic (hidden · W₂ᵀ + b₂) and the two projections embed · Wᵀ for the
  two 64 × 64 halves W of the classifier's first layer. Each matrix product into a zero accumulator is, at an entry, the finite sum
  over the contracted coordinate of the products of the operands' entries; a transposed operand is read with its coordinates swapped.
-/
import proofs.«146260_j87136296501639_1_alg».proof.Proof.Gen.KernelIdeal.Skeleton
import proofs.«146260_j87136296501639_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.EmbedPayload

open Cert.KernelIdeal Cert.KernelIdeal.Gen Idealize.ShloMosaic Idealize.ShloMosaic.ValueIdx

/-! ## A rows-by-columns product at an entry -/

/-- For dimension numbers that contract the left operand's columns with the right operand's rows (the four coordinate facts
    `l0 l1 r0 r1` say so), the product into a zero accumulator at (a, b) is ∑ k, left (a, k) · right (k, b). -/
theorem rows_by_cols {M K N : Nat} (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (i : (⟨2, ![M, N]⟩ : Shape).Idx) (q : D.contr.Idx), (D.lhsIdx i q 0).val = (i 0).val)
    (l1 : ∀ (i : (⟨2, ![M, N]⟩ : Shape).Idx) (q : D.contr.Idx), (D.lhsIdx i q 1).val = (q ⟨0, by omega⟩).val)
    (r0 : ∀ (i : (⟨2, ![M, N]⟩ : Shape).Idx) (q : D.contr.Idx), (D.rhsIdx i q 0).val = (q ⟨0, by omega⟩).val)
    (r1 : ∀ (i : (⟨2, ![M, N]⟩ : Shape).Idx) (q : D.contr.Idx), (D.rhsIdx i q 1).val = (i 1).val)
    (l : FVec Ideal (⟨2, ![M, K]⟩ : Shape) .f32) (r : FVec Ideal (⟨2, ![K, N]⟩ : Shape) .f32) (a : Fin M) (b : Fin N) :
    matmul D none l r (constant (⟨2, ![M, N]⟩ : Shape) .f32 0x00000000#32) (ix2 a b) = ∑ k : Fin K, l (ix2 a k) * r (ix2 k b) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 a b) ((contrEquiv1 D K hr hs).symm k) = ix2 a k := funext fun c => Fin.ext (by
    match c with
    | ⟨0, _⟩ => exact l0 _ _
    | ⟨1, _⟩ => exact (l1 _ _).trans hk)
  have er : D.rhsIdx (ix2 a b) ((contrEquiv1 D K hr hs).symm k) = ix2 k b := funext fun c => Fin.ext (by
    match c with
    | ⟨0, _⟩ => exact (r0 _ _).trans hk
    | ⟨1, _⟩ => exact r1 _ _)
  rw [el, er]

/-! ## The three products' coordinate facts -/

theorem first_l0 (i : S768x128.Idx) (q : dot_S768x256_S256x128_S768x128_1_0_0_1_n_n.contr.Idx) : (dot_S768x256_S256x128_S768x128_1_0_0_1_n_n.lhsIdx i q 0).val = (i 0).val := by
  unfold DotDims.lhsIdx
  rw [dif_neg (show ¬(0 : Fin S768x256.rank) ∈ dot_S768x256_S256x128_S768x128_1_0_0_1_n_n.lhsBatch by decide), dif_pos (show (0 : Fin S768x256.rank) ∈ dot_S768x256_S256x128_S768x128_1_0_0_1_n_n.lhsNonContracting by decide)]
  rfl
theorem first_l1 (i : S768x128.Idx) (q : dot_S768x256_S256x128_S768x128_1_0_0_1_n_n.contr.Idx) : (dot_S768x256_S256x128_S768x128_1_0_0_1_n_n.lhsIdx i q 1).val = (q ⟨0, by decide⟩).val :=
  dot_S768x256_S256x128_S768x128_1_0_0_1_n_n.lhsIdx_val_of_single rfl i q
theorem first_r0 (i : S768x128.Idx) (q : dot_S768x256_S256x128_S768x128_1_0_0_1_n_n.contr.Idx) : (dot_S768x256_S256x128_S768x128_1_0_0_1_n_n.rhsIdx i q 0).val = (q ⟨0, by decide⟩).val :=
  dot_S768x256_S256x128_S768x128_1_0_0_1_n_n.rhsIdx_val_of_single rfl i q
theorem first_r1 (i : S768x128.Idx) (q : dot_S768x256_S256x128_S768x128_1_0_0_1_n_n.contr.Idx) : (dot_S768x256_S256x128_S768x128_1_0_0_1_n_n.rhsIdx i q 1).val = (i 1).val := by
  unfold DotDims.rhsIdx
  rw [dif_neg (show ¬(1 : Fin S256x128.rank) ∈ dot_S768x256_S256x128_S768x128_1_0_0_1_n_n.rhsBatch by decide), dif_pos (show (1 : Fin S256x128.rank) ∈ dot_S768x256_S256x128_S768x128_1_0_0_1_n_n.rhsNonContracting by decide)]
  rfl

theorem second_l0 (i : S768x64.Idx) (q : dot_S768x128_S128x64_S768x64_1_0_0_1_n_n.contr.Idx) : (dot_S768x128_S128x64_S768x64_1_0_0_1_n_n.lhsIdx i q 0).val = (i 0).val := by
  unfold DotDims.lhsIdx
  rw [dif_neg (show ¬(0 : Fin S768x128.rank) ∈ dot_S768x128_S128x64_S768x64_1_0_0_1_n_n.lhsBatch by decide), dif_pos (show (0 : Fin S768x128.rank) ∈ dot_S768x128_S128x64_S768x64_1_0_0_1_n_n.lhsNonContracting by decide)]
  rfl
theorem second_l1 (i : S768x64.Idx) (q : dot_S768x128_S128x64_S768x64_1_0_0_1_n_n.contr.Idx) : (dot_S768x128_S128x64_S768x64_1_0_0_1_n_n.lhsIdx i q 1).val = (q ⟨0, by decide⟩).val :=
  dot_S768x128_S128x64_S768x64_1_0_0_1_n_n.lhsIdx_val_of_single rfl i q
theorem second_r0 (i : S768x64.Idx) (q : dot_S768x128_S128x64_S768x64_1_0_0_1_n_n.contr.Idx) : (dot_S768x128_S128x64_S768x64_1_0_0_1_n_n.rhsIdx i q 0).val = (q ⟨0, by decide⟩).val :=
  dot_S768x128_S128x64_S768x64_1_0_0_1_n_n.rhsIdx_val_of_single rfl i q
theorem second_r1 (i : S768x64.Idx) (q : dot_S768x128_S128x64_S768x64_1_0_0_1_n_n.contr.Idx) : (dot_S768x128_S128x64_S768x64_1_0_0_1_n_n.rhsIdx i q 1).val = (i 1).val := by
  unfold DotDims.rhsIdx
  rw [dif_neg (show ¬(1 : Fin S128x64.rank) ∈ dot_S768x128_S128x64_S768x64_1_0_0_1_n_n.rhsBatch by decide), dif_pos (show (1 : Fin S128x64.rank) ∈ dot_S768x128_S128x64_S768x64_1_0_0_1_n_n.rhsNonContracting by decide)]
  rfl

theorem third_l0 (i : S768x64.Idx) (q : dot_S768x64_S64x64_S768x64_1_0_0_1_n_n.contr.Idx) : (dot_S768x64_S64x64_S768x64_1_0_0_1_n_n.lhsIdx i q 0).val = (i 0).val := by
  unfold DotDims.lhsIdx
  rw [dif_neg (show ¬(0 : Fin S768x64.rank) ∈ dot_S768x64_S64x64_S768x64_1_0_0_1_n_n.lhsBatch by decide), dif_pos (show (0 : Fin S768x64.rank) ∈ dot_S768x64_S64x64_S768x64_1_0_0_1_n_n.lhsNonContracting by decide)]
  rfl
theorem third_l1 (i : S768x64.Idx) (q : dot_S768x64_S64x64_S768x64_1_0_0_1_n_n.contr.Idx) : (dot_S768x64_S64x64_S768x64_1_0_0_1_n_n.lhsIdx i q 1).val = (q ⟨0, by decide⟩).val :=
  dot_S768x64_S64x64_S768x64_1_0_0_1_n_n.lhsIdx_val_of_single rfl i q
theorem third_r0 (i : S768x64.Idx) (q : dot_S768x64_S64x64_S768x64_1_0_0_1_n_n.contr.Idx) : (dot_S768x64_S64x64_S768x64_1_0_0_1_n_n.rhsIdx i q 0).val = (q ⟨0, by decide⟩).val :=
  dot_S768x64_S64x64_S768x64_1_0_0_1_n_n.rhsIdx_val_of_single rfl i q
theorem third_r1 (i : S768x64.Idx) (q : dot_S768x64_S64x64_S768x64_1_0_0_1_n_n.contr.Idx) : (dot_S768x64_S64x64_S768x64_1_0_0_1_n_n.rhsIdx i q 1).val = (i 1).val := by
  unfold DotDims.rhsIdx
  rw [dif_neg (show ¬(1 : Fin S64x64.rank) ∈ dot_S768x64_S64x64_S768x64_1_0_0_1_n_n.rhsBatch by decide), dif_pos (show (1 : Fin S64x64.rank) ∈ dot_S768x64_S64x64_S768x64_1_0_0_1_n_n.rhsNonContracting by decide)]
  rfl

theorem first_product (l : FVec Ideal S768x256 .f32) (r : FVec Ideal S256x128 .f32) (a : Fin 768) (b : Fin 128) :
    matmul dot_S768x256_S256x128_S768x128_1_0_0_1_n_n none l r (constant S768x128 .f32 0x00000000#32) (ix2 a b) = ∑ k : Fin 256, l (ix2 a k) * r (ix2 k b) :=
  rows_by_cols dot_S768x256_S256x128_S768x128_1_0_0_1_n_n rfl rfl first_l0 first_l1 first_r0 first_r1 l r a b

theorem second_product (l : FVec Ideal S768x128 .f32) (r : FVec Ideal S128x64 .f32) (a : Fin 768) (b : Fin 64) :
    matmul dot_S768x128_S128x64_S768x64_1_0_0_1_n_n none l r (constant S768x64 .f32 0x00000000#32) (ix2 a b) = ∑ k : Fin 128, l (ix2 a k) * r (ix2 k b) :=
  rows_by_cols dot_S768x128_S128x64_S768x64_1_0_0_1_n_n rfl rfl second_l0 second_l1 second_r0 second_r1 l r a b

theorem third_product (l : FVec Ideal S768x64 .f32) (r : FVec Ideal S64x64 .f32) (a : Fin 768) (b : Fin 64) :
    matmul dot_S768x64_S64x64_S768x64_1_0_0_1_n_n none l r (constant S768x64 .f32 0x00000000#32) (ix2 a b) = ∑ k : Fin 64, l (ix2 a k) * r (ix2 k b) :=
  rows_by_cols dot_S768x64_S64x64_S768x64_1_0_0_1_n_n rfl rfl third_l0 third_l1 third_r0 third_r1 l r a b

/-! ## Operands read at an entry -/

/-- The first layer's weights transposed: entry (k, j) is W₁[j, k]. -/
theorem w1_transposed (v2 : FVec Ideal S128x256 .f32) (k : Fin 256) (j : Fin 128) :
    transpose S256x128 [1, 0] v2 transposes_S128x256_p1_0_S256x128 (ix2 k j) = v2 (ix2 j k) :=
  transpose_apply _ _ _ (ix2 k j) (ix2 j k) (fun b => match b with | ⟨0, _⟩ => rfl | ⟨1, _⟩ => rfl)

/-- The second layer's weights transposed: entry (j, d) is W₂[d, j]. -/
theorem w2_transposed (v4 : FVec Ideal S64x128 .f32) (j : Fin 128) (d : Fin 64) :
    transpose S128x64 [1, 0] v4 transposes_S64x128_p1_0_S128x64 (ix2 j d) = v4 (ix2 d j) :=
  transpose_apply _ _ _ (ix2 j d) (ix2 d j) (fun b => match b with | ⟨0, _⟩ => rfl | ⟨1, _⟩ => rfl)

/-- A 64 × 64 half of the classifier's weights transposed: entry (d, k) is W[k, d]. -/
theorem w_transposed (v6 : FVec Ideal S64x64 .f32) (d k : Fin 64) :
    transpose S64x64 [1, 0] (shapeCast S64x64 v6 shapeCasts_S64x64_S64x64) transposes_S64x64_p1_0_S64x64 (ix2 d k) = v6 (ix2 k d) := by
  rw [shapeCast_self]
  exact transpose_apply _ _ _ (ix2 d k) (ix2 k d) (fun b => match b with | ⟨0, _⟩ => rfl | ⟨1, _⟩ => rfl)

/-- The batch's feature block without its unit axis: entry (n, k) is the block's (0, n, k). -/
theorem features_at (v0 : FVec Ideal S1x768x256 .f32) (n : Fin 768) (k : Fin 256) :
    shapeCast S768x256 v0 shapeCasts_S1x768x256_S768x256 (ix2 n k) = v0 (ix3 0 n k) :=
  shapeCast_apply _ _ (ix2 n k) (ix3 0 n k) (by
    rw [Shape.rowMajor_val_two, Shape.rowMajor_val_three]
    show (0 * 768 + n.val) * 256 + k.val = n.val * 256 + k.val
    omega)

/-- The first bias as a row repeated for every vertex. -/
theorem b1_row (v3 : FVec Ideal S128 .f32) (n : Fin 768) (j : Fin 128) :
    broadcastTo S768x128 (shapeCast S1x128 v3 shapeCasts_S128_S1x128) broadcasts_S1x128_S768x128 (ix2 n j) = v3 (ix1 j) := by
  refine (broadcastTo_apply _ _ (ix2 n j) (ix2 0 j) (fun a => match a with
    | ⟨0, _⟩ => by show (0 : Nat) = if (1 : Nat) = 1 then 0 else n.val; rw [if_pos rfl]
    | ⟨1, _⟩ => by show j.val = if (128 : Nat) = 1 then 0 else j.val; rw [if_neg (by decide)])).trans ?_
  exact shapeCast_apply _ _ (ix2 0 j) (ix1 j) (by
    rw [Shape.rowMajor_val_one, Shape.rowMajor_val_two]
    show j.val = 0 * 128 + j.val
    omega)

/-- The second bias as a row repeated for every vertex. -/
theorem b2_row (v5 : FVec Ideal S64 .f32) (n : Fin 768) (d : Fin 64) :
    broadcastTo S768x64 (shapeCast S1x64 v5 shapeCasts_S64_S1x64) broadcasts_S1x64_S768x64 (ix2 n d) = v5 (ix1 d) := by
  refine (broadcastTo_apply _ _ (ix2 n d) (ix2 0 d) (fun a => match a with
    | ⟨0, _⟩ => by show (0 : Nat) = if (1 : Nat) = 1 then 0 else n.val; rw [if_pos rfl]
    | ⟨1, _⟩ => by show d.val = if (64 : Nat) = 1 then 0 else d.val; rw [if_neg (by decide)])).trans ?_
  exact shapeCast_apply _ _ (ix2 0 d) (ix1 d) (by
    rw [Shape.rowMajor_val_one, Shape.rowMajor_val_two]
    show d.val = 0 * 64 + d.val
    omega)

/-! ## The embedding and its projections -/

/-- The kernel's embedding at (n, d) is the embedding network on vertex n's feature row, at d. -/
theorem embed_at (v0 : FVec Ideal S1x768x256 .f32) (v2 : FVec Ideal S128x256 .f32) (v3 : FVec Ideal S128 .f32)
    (v4 : FVec Ideal S64x128 .f32) (v5 : FVec Ideal S64 .f32) (n : Fin 768) (d : Fin 64) :
    k0_pay1 (F := Ideal) v0 v2 v3 v4 v5 (ix2 n d) = Cert.Spec.embedRow (fun q => v0 (ix3 0 n q)) v2 v3 v4 v5 d := by
  unfold k0_pay1 Cert.Spec.embedRow Cert.Spec.hiddenRow
  dsimp only
  refine congrArg Ideal.logistic ?_
  refine congrArg₂ (· + ·) ((second_product _ _ n d).trans ?_) (b2_row v5 n d)
  refine Finset.sum_congr rfl fun j _ => ?_
  refine congrArg₂ (· * ·) ?_ (w2_transposed v4 j d)
  refine congrArg₂ max (congrArg₂ (· + ·) ((first_product _ _ n j).trans
    (Finset.sum_congr rfl fun k _ => congrArg₂ (· * ·) (features_at v0 n k) (w1_transposed v2 k j))) (b1_row v3 n j)) ?_
  exact Ideal.ofBits_zero_f32

/-- What the kernel stores into its first output at (0, n, k): vertex n's projection by the first half, at k. -/
theorem first_stored_at (v0 : FVec Ideal S1x768x256 .f32) (v2 : FVec Ideal S128x256 .f32) (v3 : FVec Ideal S128 .f32)
    (v4 : FVec Ideal S64x128 .f32) (v5 : FVec Ideal S64 .f32) (v6 : FVec Ideal S64x64 .f32) (n : Fin 768) (k : Fin 64) :
    k0_pay2 (F := Ideal) v0 v2 v3 v4 v5 v6 (ix3 0 n k) = Cert.Spec.projRow (fun q => v0 (ix3 0 n q)) v2 v3 v4 v5 v6 k := by
  unfold k0_pay2 Cert.Spec.projRow
  dsimp only
  refine (shapeCast_apply _ _ (ix3 0 n k) (ix2 n k) (by
    rw [Shape.rowMajor_val_two, Shape.rowMajor_val_three]
    show n.val * 64 + k.val = (0 * 768 + n.val) * 64 + k.val
    omega)).trans ?_
  refine (third_product _ _ n k).trans ?_
  refine Finset.sum_congr rfl fun d _ => ?_
  exact congrArg₂ (· * ·) (embed_at v0 v2 v3 v4 v5 n d) (w_transposed v6 d k)

/-- What the kernel stores into its second output at (0, n, k): the same with the second half. -/
theorem second_stored_at (v0 : FVec Ideal S1x768x256 .f32) (v2 : FVec Ideal S128x256 .f32) (v3 : FVec Ideal S128 .f32)
    (v4 : FVec Ideal S64x128 .f32) (v5 : FVec Ideal S64 .f32) (v8 : FVec Ideal S64x64 .f32) (n : Fin 768) (k : Fin 64) :
    k0_pay3 (F := Ideal) v0 v2 v3 v4 v5 v8 (ix3 0 n k) = Cert.Spec.projRow (fun q => v0 (ix3 0 n q)) v2 v3 v4 v5 v8 k := by
  unfold k0_pay3 Cert.Spec.projRow
  dsimp only
  refine (shapeCast_apply _ _ (ix3 0 n k) (ix2 n k) (by
    rw [Shape.rowMajor_val_two, Shape.rowMajor_val_three]
    show n.val * 64 + k.val = (0 * 768 + n.val) * 64 + k.val
    omega)).trans ?_
  refine (third_product _ _ n k).trans ?_
  refine Finset.sum_congr rfl fun d _ => ?_
  exact congrArg₂ (· * ·) (embed_at v0 v2 v3 v4 v5 n d) (w_transposed v8 d k)

end Cert.KernelIdeal.EmbedPayload

end
-- ==== Proof.EmbedRegion.lean ====
/-
  The embedding region's two result arrays. The region runs over the two batches; at batch b it fetches batch b's [1,768,256] block of
  vertex features and every weight array whole, and writes back batch b's [1,768,64] block of each projection. What a point writes back
  is its block of ONE array, the projection of all vertices by the half of the classifier's weights the region finds in its sixth (for
  the first output) or seventh (for the second) operand; the two blocks tile each result, so after the region each result array is that
  array.
-/
import proofs.«146260_j87136296501639_1_alg».proof.Proof.Gen.KernelIdeal.Frame
import proofs.«146260_j87136296501639_1_alg».proof.Proof.EmbedPayload
import Idealize.ShloMosaic.Lib.Pipeline.Value

set_option maxRecDepth 16384

noncomputable section

namespace Cert.KernelIdeal.EmbedRegion

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The block indices at a point: the feature block and both result blocks move together on the batch axis; every weight array has
    one block. -/
theorem index_facts : ∀ t : Fin cfg0.N,
    win0_0.index t (0 : Fin 3) = win0_7.index t (0 : Fin 3)
    ∧ win0_0.index t (1 : Fin 3) = 0
    ∧ win0_0.index t (2 : Fin 3) = 0
    ∧ win0_1.index t (0 : Fin 2) = 0
    ∧ win0_1.index t (1 : Fin 2) = 0
    ∧ win0_2.index t (0 : Fin 1) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 3) ≤ 1
    ∧ win0_7.index t (1 : Fin 3) = 0
    ∧ win0_7.index t (2 : Fin 3) = 0
    ∧ win0_8.index t (0 : Fin 3) = win0_7.index t (0 : Fin 3)
    ∧ win0_8.index t (1 : Fin 3) = 0
    ∧ win0_8.index t (2 : Fin 3) = 0 :=
  (by decide +kernel : ∀ t : Fin grid0.N, _)

/-- Every batch's block of each result is some point's. -/
theorem index_onto7 : ∀ (q0 : Fin 2), ∃ t : Fin cfg0.N, win0_7.index t = ![q0.val, 0, 0] :=
  (by decide +kernel : ∀ (q0 : Fin 2), ∃ t : Fin grid0.N, win0_7.index t = ![q0.val, 0, 0])
theorem index_onto8 : ∀ (q0 : Fin 2), ∃ t : Fin cfg0.N, win0_8.index t = ![q0.val, 0, 0] :=
  (by decide +kernel : ∀ (q0 : Fin 2), ∃ t : Fin grid0.N, win0_8.index t = ![q0.val, 0, 0])

/-- The feature block's row n at a point is row n of the point's batch of the feature array. -/
theorem feature_row (c : Dev nD) (t : Fin cfg0.N) (n : Fin 768) (hb : win0_7.index t (0 : Fin 3) < 2) :
    (fun q : Fin 256 => iblk0 V c 0 t (ix3 0 n q))
      = fun q => V c main_arg0 (ix3 (⟨win0_7.index t (0 : Fin 3), hb⟩ : Fin 2) n q) := by
  obtain ⟨e0, e1, e2, -⟩ := index_facts t
  refine funext fun q => ?_
  show V c main_arg0 (((cfg0.win 0).blk t).view.emb (ix3 0 n q)) = _
  refine congrArg (V c main_arg0) (funext fun a => Fin.ext ?_)
  match a with
  | ⟨0, _⟩ => show win0_0.index t (0 : Fin 3) * 1 + 1 * 0 = win0_7.index t (0 : Fin 3); omega
  | ⟨1, _⟩ => show win0_0.index t (1 : Fin 3) * 768 + 1 * n.val = n.val; omega
  | ⟨2, _⟩ => show win0_0.index t (2 : Fin 3) * 256 + 1 * q.val = q.val; omega

/-- Each weight array's one block is the array. -/
theorem w1_whole (c : Dev nD) (t : Fin cfg0.N) : iblk0 V c 1 t = V c main_arg1 := by
  obtain ⟨-, -, -, e3, e4, -⟩ := index_facts t
  refine funext fun (x : S128x256.Idx) => ?_
  show V c main_arg1 (((cfg0.win 1).blk t).view.emb x) = V c main_arg1 x
  refine congrArg (V c main_arg1) (funext fun a => Fin.ext ?_)
  match a with
  | ⟨0, _⟩ => show win0_1.index t (0 : Fin 2) * 128 + 1 * (x 0).val = (x 0).val; omega
  | ⟨1, _⟩ => show win0_1.index t (1 : Fin 2) * 256 + 1 * (x 1).val = (x 1).val; omega
theorem b1_whole (c : Dev nD) (t : Fin cfg0.N) : iblk0 V c 2 t = V c main_arg2 := by
  obtain ⟨-, -, -, -, -, e5, -⟩ := index_facts t
  refine funext fun (x : S128.Idx) => ?_
  show V c main_arg2 (((cfg0.win 2).blk t).view.emb x) = V c main_arg2 x
  refine congrArg (V c main_arg2) (funext fun a => Fin.ext ?_)
  match a with
  | ⟨0, _⟩ => show win0_2.index t (0 : Fin 1) * 128 + 1 * (x 0).val = (x 0).val; omega
theorem w2_whole (c : Dev nD) (t : Fin cfg0.N) : iblk0 V c 3 t = V c main_arg3 := by
  obtain ⟨-, -, -, -, -, -, e6, e7, -⟩ := index_facts t
  refine funext fun (x : S64x128.Idx) => ?_
  show V c main_arg3 (((cfg0.win 3).blk t).view.emb x) = V c main_arg3 x
  refine congrArg (V c main_arg3) (funext fun a => Fin.ext ?_)
  match a with
  | ⟨0, _⟩ => show win0_3.index t (0 : Fin 2) * 64 + 1 * (x 0).val = (x 0).val; omega
  | ⟨1, _⟩ => show win0_3.index t (1 : Fin 2) * 128 + 1 * (x 1).val = (x 1).val; omega
theorem b2_whole (c : Dev nD) (t : Fin cfg0.N) : iblk0 V c 4 t = V c main_arg4 := by
  obtain ⟨-, -, -, -, -, -, -, -, e8, -⟩ := index_facts t
  refine funext fun (x : S64.Idx) => ?_
  show V c main_arg4 (((cfg0.win 4).blk t).view.emb x) = V c main_arg4 x
  refine congrArg (V c main_arg4) (funext fun a => Fin.ext ?_)
  match a with
  | ⟨0, _⟩ => show win0_4.index t (0 : Fin 1) * 64 + 1 * (x 0).val = (x 0).val; omega
theorem first_half_whole (c : Dev nD) (t : Fin cfg0.N) : iblk0 V c 5 t = V c main_v0 := by
  obtain ⟨-, -, -, -, -, -, -, -, -, e9, e10, -⟩ := index_facts t
  refine funext fun (x : S64x64.Idx) => ?_
  show V c main_v0 (((cfg0.win 5).blk t).view.emb x) = V c main_v0 x
  refine congrArg (V c main_v0) (funext fun a => Fin.ext ?_)
  match a with
  | ⟨0, _⟩ => show win0_5.index t (0 : Fin 2) * 64 + 1 * (x 0).val = (x 0).val; omega
  | ⟨1, _⟩ => show win0_5.index t (1 : Fin 2) * 64 + 1 * (x 1).val = (x 1).val; omega
theorem second_half_whole (c : Dev nD) (t : Fin cfg0.N) : iblk0 V c 6 t = V c main_v1 := by
  obtain ⟨-, -, -, -, -, -, -, -, -, -, -, e11, e12, -⟩ := index_facts t
  refine funext fun (x : S64x64.Idx) => ?_
  show V c main_v1 (((cfg0.win 6).blk t).view.emb x) = V c main_v1 x
  refine congrArg (V c main_v1) (funext fun a => Fin.ext ?_)
  match a with
  | ⟨0, _⟩ => show win0_6.index t (0 : Fin 2) * 64 + 1 * (x 0).val = (x 0).val; omega
  | ⟨1, _⟩ => show win0_6.index t (1 : Fin 2) * 64 + 1 * (x 1).val = (x 1).val; omega

/-- What point t writes back to the first result is block t of the projection by the first half. -/
theorem flushed7_eq (c : Dev nD) (t : Fin cfg0.N) :
    (dat0 V c).flushed 7 t = ((cfg0.win 7).blk t).view.read (Elt Ideal)
      (Cert.Spec.proj (V c main_arg0) (V c main_arg1) (V c main_arg2) (V c main_arg3) (V c main_arg4) (V c main_v0)) := by
  show (cfg0.win 7).cut (grid0.coords t) ((dat0 V c).after 7 t) = _
  rw [after0_7]
  unfold out0_7
  rw [View.canon_unit_zero zeros3]
  simp only [View.ld_unit_zero (S := S1x768x256) zeros3, View.ld_unit_zero (S := S128x256) zeros2,
    View.ld_unit_zero (S := S128) zeros1, View.ld_unit_zero (S := S64x128) zeros2, View.ld_unit_zero (S := S64) zeros1,
    View.ld_unit_zero (S := S64x64) zeros2]
  have hf := index_facts t
  have hb : win0_7.index t (0 : Fin 3) < 2 := by omega
  have h1 : win0_7.index t (1 : Fin 3) = 0 := by omega
  have h2 : win0_7.index t (2 : Fin 3) = 0 := by omega
  refine funext fun (y : S1x768x64.Idx) => ?_
  obtain ⟨y0, n, k, rfl⟩ : ∃ (y0 : Fin 1) (n : Fin 768) (k : Fin 64), y = ix3 y0 n k := ⟨y 0, y 1, y 2, eq_ix3 y⟩
  obtain rfl : y0 = 0 := Fin.ext (by have := y0.isLt; omega)
  show k0_pay2 (F := Ideal) (iblk0 V c 0 t) (iblk0 V c 1 t) (iblk0 V c 2 t) (iblk0 V c 3 t) (iblk0 V c 4 t) (iblk0 V c 5 t) (ix3 0 n k)
    = Cert.Spec.proj (V c main_arg0) (V c main_arg1) (V c main_arg2) (V c main_arg3) (V c main_arg4) (V c main_v0)
        (((cfg0.win 7).blk t).view.emb (ix3 0 n k))
  refine (EmbedPayload.first_stored_at (iblk0 V c 0 t) (iblk0 V c 1 t) (iblk0 V c 2 t) (iblk0 V c 3 t) (iblk0 V c 4 t)
    (iblk0 V c 5 t) n k).trans ?_
  refine Eq.trans ?_ (Cert.Spec.proj_at _ _ _ _ _ _ _ ⟨win0_7.index t (0 : Fin 3), hb⟩ n k
    (by show win0_7.index t (0 : Fin 3) * 1 + 1 * 0 = win0_7.index t (0 : Fin 3); omega)
    (by show win0_7.index t (1 : Fin 3) * 768 + 1 * n.val = n.val; omega)
    (by show win0_7.index t (2 : Fin 3) * 64 + 1 * k.val = k.val; omega)).symm
  exact Cert.Spec.projRow_congr k (feature_row V c t n hb) (w1_whole V c t) (b1_whole V c t) (w2_whole V c t) (b2_whole V c t)
    (first_half_whole V c t)

/-- What point t writes back to the second result is block t of the projection by the second half. -/
theorem flushed8_eq (c : Dev nD) (t : Fin cfg0.N) :
    (dat0 V c).flushed 8 t = ((cfg0.win 8).blk t).view.read (Elt Ideal)
      (Cert.Spec.proj (V c main_arg0) (V c main_arg1) (V c main_arg2) (V c main_arg3) (V c main_arg4) (V c main_v1)) := by
  show (cfg0.win 8).cut (grid0.coords t) ((dat0 V c).after 8 t) = _
  rw [after0_8]
  unfold out0_8
  rw [View.canon_unit_zero zeros3]
  simp only [View.ld_unit_zero (S := S1x768x256) zeros3, View.ld_unit_zero (S := S128x256) zeros2,
    View.ld_unit_zero (S := S128) zeros1, View.ld_unit_zero (S := S64x128) zeros2, View.ld_unit_zero (S := S64) zeros1,
    View.ld_unit_zero (S := S64x64) zeros2]
  have hf := index_facts t
  have hb : win0_7.index t (0 : Fin 3) < 2 := by omega
  have h0 : win0_8.index t (0 : Fin 3) = win0_7.index t (0 : Fin 3) := by omega
  have h1 : win0_8.index t (1 : Fin 3) = 0 := by omega
  have h2 : win0_8.index t (2 : Fin 3) = 0 := by omega
  refine funext fun (y : S1x768x64.Idx) => ?_
  obtain ⟨y0, n, k, rfl⟩ : ∃ (y0 : Fin 1) (n : Fin 768) (k : Fin 64), y = ix3 y0 n k := ⟨y 0, y 1, y 2, eq_ix3 y⟩
  obtain rfl : y0 = 0 := Fin.ext (by have := y0.isLt; omega)
  show k0_pay3 (F := Ideal) (iblk0 V c 0 t) (iblk0 V c 1 t) (iblk0 V c 2 t) (iblk0 V c 3 t) (iblk0 V c 4 t) (iblk0 V c 6 t) (ix3 0 n k)
    = Cert.Spec.proj (V c main_arg0) (V c main_arg1) (V c main_arg2) (V c main_arg3) (V c main_arg4) (V c main_v1)
        (((cfg0.win 8).blk t).view.emb (ix3 0 n k))
  refine (EmbedPayload.second_stored_at (iblk0 V c 0 t) (iblk0 V c 1 t) (iblk0 V c 2 t) (iblk0 V c 3 t) (iblk0 V c 4 t)
    (iblk0 V c 6 t) n k).trans ?_
  refine Eq.trans ?_ (Cert.Spec.proj_at _ _ _ _ _ _ _ ⟨win0_7.index t (0 : Fin 3), hb⟩ n k
    (by show win0_8.index t (0 : Fin 3) * 1 + 1 * 0 = win0_7.index t (0 : Fin 3); omega)
    (by show win0_8.index t (1 : Fin 3) * 768 + 1 * n.val = n.val; omega)
    (by show win0_8.index t (2 : Fin 3) * 64 + 1 * k.val = k.val; omega)).symm
  exact Cert.Spec.projRow_congr k (feature_row V c t n hb) (w1_whole V c t) (b1_whole V c t) (w2_whole V c t) (b2_whole V c t)
    (second_half_whole V c t)

/-- An index of a result array is in point t's block iff each coordinate is in the block's range on its axis. -/
theorem mem_blk7 (t : Fin cfg0.N) (i : S2x768x64.Idx) :
    i ∈ ((cfg0.win 7).blk t).view.set ↔ ∀ a : Fin 3, win0_7.index t a * S1x768x64.size a ≤ (i a).val
      ∧ (i a).val < win0_7.index t a * S1x768x64.size a + S1x768x64.size a := by
  show i ∈ ((View.whole main_v2_0).slice (win0_7.rect t)).set ↔ _
  rw [View.set_slice_whole, Rect.mem_set_unit]
  exact Iff.rfl
theorem mem_blk8 (t : Fin cfg0.N) (i : S2x768x64.Idx) :
    i ∈ ((cfg0.win 8).blk t).view.set ↔ ∀ a : Fin 3, win0_8.index t a * S1x768x64.size a ≤ (i a).val
      ∧ (i a).val < win0_8.index t a * S1x768x64.size a + S1x768x64.size a := by
  show i ∈ ((View.whole main_v2_1).slice (win0_8.rect t)).set ↔ _
  rw [View.set_slice_whole, Rect.mem_set_unit]
  exact Iff.rfl

/-- Every index of a result array is in the block of the point of its batch. -/
theorem covered7 (i : S2x768x64.Idx) :
    ∃ t : Fin cfg0.N, (cfg0.win 7).flush t = true ∧ i ∈ ((cfg0.win 7).blk t).view.set := by
  have hi0 : (i 0).val < 2 := (i 0).isLt
  have hi1 : (i 1).val < 768 := (i 1).isLt
  have hi2 : (i 2).val < 64 := (i 2).isLt
  obtain ⟨t, ht⟩ := index_onto7 ⟨(i 0).val, hi0⟩
  have q0 : win0_7.index t (0 : Fin 3) = (i 0).val := congrFun ht 0
  have q1 : win0_7.index t (1 : Fin 3) = 0 := congrFun ht 1
  have q2 : win0_7.index t (2 : Fin 3) = 0 := congrFun ht 2
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 768 ≤ (i 1).val ∧ (i 1).val < win0_7.index t (1 : Fin 3) * 768 + 768; omega
  | ⟨2, _⟩ => show win0_7.index t (2 : Fin 3) * 64 ≤ (i 2).val ∧ (i 2).val < win0_7.index t (2 : Fin 3) * 64 + 64; omega
theorem covered8 (i : S2x768x64.Idx) :
    ∃ t : Fin cfg0.N, (cfg0.win 8).flush t = true ∧ i ∈ ((cfg0.win 8).blk t).view.set := by
  have hi0 : (i 0).val < 2 := (i 0).isLt
  have hi1 : (i 1).val < 768 := (i 1).isLt
  have hi2 : (i 2).val < 64 := (i 2).isLt
  obtain ⟨t, ht⟩ := index_onto8 ⟨(i 0).val, hi0⟩
  have q0 : win0_8.index t (0 : Fin 3) = (i 0).val := congrFun ht 0
  have q1 : win0_8.index t (1 : Fin 3) = 0 := congrFun ht 1
  have q2 : win0_8.index t (2 : Fin 3) = 0 := congrFun ht 2
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 768 ≤ (i 1).val ∧ (i 1).val < win0_8.index t (1 : Fin 3) * 768 + 768; omega
  | ⟨2, _⟩ => show win0_8.index t (2 : Fin 3) * 64 ≤ (i 2).val ∧ (i 2).val < win0_8.index t (2 : Fin 3) * 64 + 64; omega

/-- After the region the first result array is the projection of every vertex by the first half, -/
theorem first_result (c : Dev nD) :
    (dat0 V c).arrAt 7 cfg0.N
      = Cert.Spec.proj (V c main_arg0) (V c main_arg1) (V c main_arg2) (V c main_arg3) (V c main_arg4) (V c main_v0) :=
  (dat0 V c).arrAt_eq_of_cover 7 _ (fun t _ => flushed7_eq V c t) covered7

/-- and the second the projection by the second half. -/
theorem second_result (c : Dev nD) :
    (dat0 V c).arrAt 8 cfg0.N
      = Cert.Spec.proj (V c main_arg0) (V c main_arg1) (V c main_arg2) (V c main_arg3) (V c main_arg4) (V c main_v1) :=
  (dat0 V c).arrAt_eq_of_cover 8 _ (fun t _ => flushed8_eq V c t) covered8

end Cert.KernelIdeal.EmbedRegion

end
-- ==== Proof.KernelValue.lean ====
/-
  The idealized kernel's result as one function of the launch memory. Before the first region the host cuts the classifier's [64,128]
  weights into their two [64,64] column halves; the first region leaves the two projections; the second region reads them back with the
  remaining arguments. No host operation and no region writes an argument, so each region finds the arguments as launched, and the result
  array ends as the pair classifier of the two projections of the launched arguments.
-/
import proofs.«146260_j87136296501639_1_alg».proof.Proof.KernelRun
import proofs.«146260_j87136296501639_1_alg».proof.Proof.PairRegion
import proofs.«146260_j87136296501639_1_alg».proof.Proof.EmbedRegion
import Idealize.ShloMosaic.Lib.StableHlo.Run

set_option maxRecDepth 16384

noncomputable section

namespace Cert.KernelIdeal.Value

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What the first region finds -/

theorem entry_arg0 (c : Dev nD) : V1 m ρ c main_arg0 = m ((c : Thread nD τ).loc main_arg0) := by
  show StableHlo.after hostOps0 (W0 m ρ c) (Proc.devRef .tc main_arg0) = _
  after_results
theorem entry_arg1 (c : Dev nD) : V1 m ρ c main_arg1 = m ((c : Thread nD τ).loc main_arg1) := by
  show StableHlo.after hostOps0 (W0 m ρ c) (Proc.devRef .tc main_arg1) = _
  after_results
theorem entry_arg2 (c : Dev nD) : V1 m ρ c main_arg2 = m ((c : Thread nD τ).loc main_arg2) := by
  show StableHlo.after hostOps0 (W0 m ρ c) (Proc.devRef .tc main_arg2) = _
  after_results
theorem entry_arg3 (c : Dev nD) : V1 m ρ c main_arg3 = m ((c : Thread nD τ).loc main_arg3) := by
  show StableHlo.after hostOps0 (W0 m ρ c) (Proc.devRef .tc main_arg3) = _
  after_results
theorem entry_arg4 (c : Dev nD) : V1 m ρ c main_arg4 = m ((c : Thread nD τ).loc main_arg4) := by
  show StableHlo.after hostOps0 (W0 m ρ c) (Proc.devRef .tc main_arg4) = _
  after_results
/-- The first column half of the classifier's weights. -/
theorem entry_first_half (c : Dev nD) :
    V1 m ρ c main_v0 = extractStridedSlice S64x64 ![0, 0] (m ((c : Thread nD τ).loc main_arg5)) slices_S64x128_S64x64_0_0 := by
  show StableHlo.after hostOps0 (W0 m ρ c) (Proc.devRef .tc main_v0) = _
  after_results
/-- The second column half. -/
theorem entry_second_half (c : Dev nD) :
    V1 m ρ c main_v1 = extractStridedSlice S64x64 ![0, 64] (m ((c : Thread nD τ).loc main_arg5)) slices_S64x128_S64x64_0_64 := by
  show StableHlo.after hostOps0 (W0 m ρ c) (Proc.devRef .tc main_v1) = _
  after_results

/-! ## What the second region finds -/

theorem mid_arg6 (c : Dev nD) : V2 m ρ c main_arg6 = m ((c : Thread nD τ).loc main_arg6) := by
  refine (W2_of_ne m ρ c main_arg6 (by decide)).trans ?_
  show StableHlo.after hostOps0 (W0 m ρ c) (Proc.devRef .tc main_arg6) = _
  after_results
theorem mid_arg7 (c : Dev nD) : V2 m ρ c main_arg7 = m ((c : Thread nD τ).loc main_arg7) := by
  refine (W2_of_ne m ρ c main_arg7 (by decide)).trans ?_
  show StableHlo.after hostOps0 (W0 m ρ c) (Proc.devRef .tc main_arg7) = _
  after_results
theorem mid_arg8 (c : Dev nD) : V2 m ρ c main_arg8 = m ((c : Thread nD τ).loc main_arg8) := by
  refine (W2_of_ne m ρ c main_arg8 (by decide)).trans ?_
  show StableHlo.after hostOps0 (W0 m ρ c) (Proc.devRef .tc main_arg8) = _
  after_results

/-- The first projection as the second region finds it. -/
theorem mid_first_projection (c : Dev nD) :
    V2 m ρ c main_v2_0 = Cert.Spec.proj (m ((c : Thread nD τ).loc main_arg0)) (m ((c : Thread nD τ).loc main_arg1))
      (m ((c : Thread nD τ).loc main_arg2)) (m ((c : Thread nD τ).loc main_arg3)) (m ((c : Thread nD τ).loc main_arg4))
      (extractStridedSlice S64x64 ![0, 0] (m ((c : Thread nD τ).loc main_arg5)) slices_S64x128_S64x64_0_0) := by
  refine (W2_arr m ρ c 7).trans ?_
  rw [EmbedRegion.first_result (V1 m ρ) c, entry_arg0, entry_arg1, entry_arg2, entry_arg3, entry_arg4, entry_first_half]

/-- The second projection as the second region finds it. -/
theorem mid_second_projection (c : Dev nD) :
    V2 m ρ c main_v2_1 = Cert.Spec.proj (m ((c : Thread nD τ).loc main_arg0)) (m ((c : Thread nD τ).loc main_arg1))
      (m ((c : Thread nD τ).loc main_arg2)) (m ((c : Thread nD τ).loc main_arg3)) (m ((c : Thread nD τ).loc main_arg4))
      (extractStridedSlice S64x64 ![0, 64] (m ((c : Thread nD τ).loc main_arg5)) slices_S64x128_S64x64_0_64) := by
  refine (W2_arr m ρ c 8).trans ?_
  rw [EmbedRegion.second_result (V1 m ρ) c, entry_arg0, entry_arg1, entry_arg2, entry_arg3, entry_arg4, entry_second_half]

/-! ## The result -/

/-- The result array as a function of the launched arguments. -/
def result (c : Dev nD) : S2x768x768.Idx → EReal :=
  Cert.Spec.pair
    (Cert.Spec.proj (m ((c : Thread nD τ).loc main_arg0)) (m ((c : Thread nD τ).loc main_arg1))
      (m ((c : Thread nD τ).loc main_arg2)) (m ((c : Thread nD τ).loc main_arg3)) (m ((c : Thread nD τ).loc main_arg4))
      (extractStridedSlice S64x64 ![0, 0] (m ((c : Thread nD τ).loc main_arg5)) slices_S64x128_S64x64_0_0))
    (Cert.Spec.proj (m ((c : Thread nD τ).loc main_arg0)) (m ((c : Thread nD τ).loc main_arg1))
      (m ((c : Thread nD τ).loc main_arg2)) (m ((c : Thread nD τ).loc main_arg3)) (m ((c : Thread nD τ).loc main_arg4))
      (extractStridedSlice S64x64 ![0, 64] (m ((c : Thread nD τ).loc main_arg5)) slices_S64x128_S64x64_0_64))
    (m ((c : Thread nD τ).loc main_arg6)) (m ((c : Thread nD τ).loc main_arg7)) (m ((c : Thread nD τ).loc main_arg8))

/-- The last boundary's contents at the result array. -/
theorem exit_result (c : Dev nD) : W3 m ρ c (Proc.devRef .tc main_v3) = result m c := by
  refine (W3_arr m ρ c 5).trans ?_
  rw [PairRegion.result_array (V2 m ρ) c, mid_first_projection, mid_second_projection, mid_arg6, mid_arg7, mid_arg8]
  rfl

/-- Every weakly fair execution of the idealized kernel terminates without a fault with the result array at `result` and the
    arguments as launched. -/
theorem run : θ_run defs (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (exit_result m ρ c), (h c).2⟩) (Run.run_result m ρ)

end Cert.KernelIdeal.Value

end
-- ==== Proof.RefValue.lean ====
/-
  The reference, read index by index. Its forty-seven host operations compute, in this order: the first layer (a contraction of the
  features with W₁ over their last axes, the bias, the positive part), the second layer (a contraction with W₂, the bias, then
  1 / (1 + exp (−·)), which on the extended reals is the logistic function), the two projections (contractions with the two column halves
  of the classifier's weights), the sum p₁[b,i,k] + p₂[b,j,k] + c₁[k] over all pairs, its positive part, the contraction with w over k, the
  bias c₂, and the logistic function again. Read at (b, i, j) this is the pair classifier of rows (b, i) and (b, j) of the two projections.
-/
import proofs.«146260_j87136296501639_1_alg».proof.Proof.Gen.ReferenceIdeal.Read
import proofs.«146260_j87136296501639_1_alg».proof.Proof.Spec
import Idealize.ShloMosaic.Lib.ValueIdx
import Idealize.ShloMosaic.PureOps.Ideal.Laws

set_option maxRecDepth 16384

noncomputable section

namespace Cert.RefValue

open Cert.ReferenceIdeal Cert.ReferenceIdeal.Read Idealize.ShloMosaic Idealize.ShloMosaic.ValueIdx

/-- The word of 1.0 is the real number one. -/
theorem one_word : Ideal.ofBits .f32 0x3F800000#32 = 1 := IdealRules.sign_bit.ideal_onePat .f32

/-- 1 / (1 + exp (−x)), spelt with the host's operations and the word of 1.0, is the logistic function. -/
theorem host_logistic (x : EReal) :
    FloatOps.hostDivf (F := Ideal) (φ := .f32) (FloatOps.ofBits .f32 0x3F800000#32)
      (FloatOps.addf (FloatOps.ofBits .f32 0x3F800000#32) (FloatOps.hostUnary .exp (FloatOps.hostNegf x))) = Ideal.logistic x := by
  simp only [Ideal.hostDivf_def, Ideal.addf_def, Ideal.hostUnary_exp_def, Ideal.hostNegf_def, Ideal.negf_def, Ideal.ofBits_def, one_word]
  rfl

/-- The first layer at (b, n, j). -/
theorem hidden_at (x0 : FVec Ideal S2x768x256 .f32) (x1 : FVec Ideal S128x256 .f32) (x2 : FVec Ideal S128 .f32) (b : Fin 2) (n : Fin 768) (j : Fin 128) :
    val_main_v4 (F := Ideal) x0 x1 x2 (ix3 b n j) = Cert.Spec.hiddenRow (fun q => x0 (ix3 b n q)) x1 x2 j := by
  rw [val_main_v4_apply, val_main_v3_apply, val_main_v0_apply, val_main_v2_apply, val_main_v1_apply, val_main_call0_v0_apply,
    val_main_call0_cst_apply]
  unfold Cert.Spec.hiddenRow
  refine congrArg₂ max (congrArg₂ (· + ·) (Finset.sum_congr rfl fun k _ => congrArg₂ (· * ·) (congrArg x0 ?_) (congrArg x1 ?_))
    (congrArg x2 ?_)) Ideal.ofBits_zero_f32
  · exact funext fun a => match a with | ⟨0, _⟩ => rfl | ⟨1, _⟩ => rfl | ⟨2, _⟩ => rfl
  · exact funext fun a => match a with | ⟨0, _⟩ => rfl | ⟨1, _⟩ => rfl
  · exact funext fun a => match a with | ⟨0, _⟩ => rfl

/-- The second layer at (b, n, d). -/
theorem embed_at (x0 : FVec Ideal S2x768x256 .f32) (x1 : FVec Ideal S128x256 .f32) (x2 : FVec Ideal S128 .f32) (x3 : FVec Ideal S64x128 .f32) (x4 : FVec Ideal S64 .f32) (b : Fin 2) (n : Fin 768) (d : Fin 64) :
    val_main_v14 (F := Ideal) x0 x1 x2 x3 x4 (ix3 b n d) = Cert.Spec.embedRow (fun q => x0 (ix3 b n q)) x1 x2 x3 x4 d := by
  rw [val_main_v14_apply, val_main_v13_apply, val_main_cst_0_apply, val_main_v12_apply, val_main_v11_apply, val_main_cst_apply,
    val_main_v10_apply, val_main_v9_apply, val_main_v8_apply, val_main_v5_apply, val_main_v7_apply, val_main_v6_apply]
  unfold Cert.Spec.embedRow
  refine (host_logistic _).trans (congrArg Ideal.logistic ?_)
  refine congrArg₂ (· + ·) (Finset.sum_congr rfl fun j _ => congrArg₂ (· * ·) ?_ (congrArg x3 ?_)) (congrArg x4 ?_)
  · refine Eq.trans (congrArg (val_main_v4 (F := Ideal) x0 x1 x2) ?_) (hidden_at x0 x1 x2 b n j)
    exact funext fun a => match a with | ⟨0, _⟩ => rfl | ⟨1, _⟩ => rfl | ⟨2, _⟩ => rfl
  · exact funext fun a => match a with | ⟨0, _⟩ => rfl | ⟨1, _⟩ => rfl
  · exact funext fun a => match a with | ⟨0, _⟩ => rfl

/-- The first projection is the projection by the first column half. -/
theorem first_projection (x0 : FVec Ideal S2x768x256 .f32) (x1 : FVec Ideal S128x256 .f32) (x2 : FVec Ideal S128 .f32) (x3 : FVec Ideal S64x128 .f32) (x4 : FVec Ideal S64 .f32) (x5 : FVec Ideal S64x128 .f32) :
    val_main_v17 (F := Ideal) x0 x1 x2 x3 x4 x5 = Cert.Spec.proj x0 x1 x2 x3 x4 (val_main_v15 (F := Ideal) x5) := by
  refine funext fun (y : S2x768x64.Idx) => ?_
  obtain ⟨b, n, k, rfl⟩ : ∃ (b : Fin 2) (n : Fin 768) (k : Fin 64), y = ix3 b n k := ⟨y 0, y 1, y 2, eq_ix3 y⟩
  rw [val_main_v17_apply, Cert.Spec.proj_ix3]
  unfold Cert.Spec.projRow
  refine Finset.sum_congr rfl fun d _ => congrArg₂ (· * ·) ?_ (congrArg (val_main_v15 (F := Ideal) x5) ?_)
  · refine Eq.trans (congrArg (val_main_v14 (F := Ideal) x0 x1 x2 x3 x4) ?_) (embed_at x0 x1 x2 x3 x4 b n d)
    exact funext fun a => match a with | ⟨0, _⟩ => rfl | ⟨1, _⟩ => rfl | ⟨2, _⟩ => rfl
  · exact funext fun a => match a with | ⟨0, _⟩ => rfl | ⟨1, _⟩ => rfl

/-- The second projection is the projection by the second column half. -/
theorem second_projection (x0 : FVec Ideal S2x768x256 .f32) (x1 : FVec Ideal S128x256 .f32) (x2 : FVec Ideal S128 .f32) (x3 : FVec Ideal S64x128 .f32) (x4 : FVec Ideal S64 .f32) (x5 : FVec Ideal S64x128 .f32) :
    val_main_v18 (F := Ideal) x0 x1 x2 x3 x4 x5 = Cert.Spec.proj x0 x1 x2 x3 x4 (val_main_v16 (F := Ideal) x5) := by
  refine funext fun (y : S2x768x64.Idx) => ?_
  obtain ⟨b, n, k, rfl⟩ : ∃ (b : Fin 2) (n : Fin 768) (k : Fin 64), y = ix3 b n k := ⟨y 0, y 1, y 2, eq_ix3 y⟩
  rw [val_main_v18_apply, Cert.Spec.proj_ix3]
  unfold Cert.Spec.projRow
  refine Finset.sum_congr rfl fun d _ => congrArg₂ (· * ·) ?_ (congrArg (val_main_v16 (F := Ideal) x5) ?_)
  · refine Eq.trans (congrArg (val_main_v14 (F := Ideal) x0 x1 x2 x3 x4) ?_) (embed_at x0 x1 x2 x3 x4 b n d)
    exact funext fun a => match a with | ⟨0, _⟩ => rfl | ⟨1, _⟩ => rfl | ⟨2, _⟩ => rfl
  · exact funext fun a => match a with | ⟨0, _⟩ => rfl | ⟨1, _⟩ => rfl

/-- The pairwise hidden value at (b, i, j, k): the positive part of p₁[b,i,k] + p₂[b,j,k] + c₁[k]. -/
theorem pair_hidden_at (x0 : FVec Ideal S2x768x256 .f32) (x1 : FVec Ideal S128x256 .f32) (x2 : FVec Ideal S128 .f32) (x3 : FVec Ideal S64x128 .f32) (x4 : FVec Ideal S64 .f32) (x5 : FVec Ideal S64x128 .f32) (x6 : FVec Ideal S64 .f32) (b : Fin 2) (i j : Fin 768) (k : Fin 64) :
    val_main_v27 (F := Ideal) x0 x1 x2 x3 x4 x5 x6 (ix4 b i j k)
      = max ((val_main_v17 (F := Ideal) x0 x1 x2 x3 x4 x5 (ix3 b i k) + val_main_v18 (F := Ideal) x0 x1 x2 x3 x4 x5 (ix3 b j k))
          + x6 (ix1 k)) 0 := by
  rw [val_main_v27_apply, val_main_v26_apply, val_main_v23_apply, val_main_v21_apply, val_main_v19_apply, val_main_v22_apply,
    val_main_v20_apply, val_main_v25_apply, val_main_v24_apply, val_main_call1_v0_apply, val_main_call1_cst_apply]
  refine congrArg₂ max (congrArg₂ (· + ·) (congrArg₂ (· + ·) (congrArg (val_main_v17 (F := Ideal) x0 x1 x2 x3 x4 x5) ?_)
    (congrArg (val_main_v18 (F := Ideal) x0 x1 x2 x3 x4 x5) ?_)) (congrArg x6 ?_)) Ideal.ofBits_zero_f32
  · exact funext fun a => match a with | ⟨0, _⟩ => rfl | ⟨1, _⟩ => rfl | ⟨2, _⟩ => rfl
  · exact funext fun a => match a with | ⟨0, _⟩ => rfl | ⟨1, _⟩ => rfl | ⟨2, _⟩ => rfl
  · exact funext fun a => match a with | ⟨0, _⟩ => rfl

/-- The index of the [2,768,768,1] array a [2,768,768] index is reshaped from. -/
theorem reshaped_index (b : Fin 2) (i j : Fin 768) : idx_main_v32 (ix3 b i j) = ix4 b i j 0 := by
  have hb := b.isLt
  have hi := i.isLt
  have hj := j.isLt
  refine funext fun a => Fin.ext ?_
  match a with
  | ⟨0, _⟩ => show ((b.val * 768 + i.val) * 768 + j.val) / 589824 = b.val; omega
  | ⟨1, _⟩ => show ((b.val * 768 + i.val) * 768 + j.val) / 768 % 768 = i.val; omega
  | ⟨2, _⟩ => show ((b.val * 768 + i.val) * 768 + j.val) / 1 % 768 = j.val; omega
  | ⟨3, _⟩ => rfl

/-- The reference's result is the pair classifier of its two projections. -/
theorem result_eq (x0 : FVec Ideal S2x768x256 .f32) (x1 : FVec Ideal S128x256 .f32) (x2 : FVec Ideal S128 .f32) (x3 : FVec Ideal S64x128 .f32) (x4 : FVec Ideal S64 .f32) (x5 : FVec Ideal S64x128 .f32) (x6 : FVec Ideal S64 .f32) (x7 : FVec Ideal S1x64 .f32) (x8 : FVec Ideal S1 .f32) :
    val_main_v38 (F := Ideal) x0 x1 x2 x3 x4 x5 x6 x7 x8
      = Cert.Spec.pair (Cert.Spec.proj x0 x1 x2 x3 x4 (val_main_v15 (F := Ideal) x5))
          (Cert.Spec.proj x0 x1 x2 x3 x4 (val_main_v16 (F := Ideal) x5)) x6 x7 x8 := by
  rw [← first_projection x0 x1 x2 x3 x4 x5, ← second_projection x0 x1 x2 x3 x4 x5]
  refine funext fun (y : S2x768x768.Idx) => ?_
  obtain ⟨b, i, j, rfl⟩ : ∃ (b : Fin 2) (i : Fin 768) (j : Fin 768), y = ix3 b i j := ⟨y 0, y 1, y 2, eq_ix3 y⟩
  rw [val_main_v38_apply, val_main_v37_apply, val_main_cst_2_apply, val_main_v36_apply, val_main_v35_apply, val_main_cst_1_apply,
    val_main_v34_apply, val_main_v33_apply, val_main_v32_apply, val_main_v31_apply, val_main_v28_apply, val_main_v30_apply,
    val_main_v29_apply, reshaped_index, Cert.Spec.pair_ix3]
  unfold Cert.Spec.pairRow
  refine (host_logistic _).trans (congrArg Ideal.logistic ?_)
  refine congrArg₂ (· + ·) (Finset.sum_congr rfl fun k _ => congrArg₂ (· * ·) ?_ (congrArg x7 ?_)) (congrArg x8 ?_)
  · refine Eq.trans (congrArg (val_main_v27 (F := Ideal) x0 x1 x2 x3 x4 x5 x6) ?_) (pair_hidden_at x0 x1 x2 x3 x4 x5 x6 b i j k)
    exact funext fun a => match a with | ⟨0, _⟩ => rfl | ⟨1, _⟩ => rfl | ⟨2, _⟩ => rfl | ⟨3, _⟩ => rfl
  · exact funext fun a => match a with | ⟨0, _⟩ => rfl | ⟨1, _⟩ => rfl
  · exact funext fun a => match a with | ⟨0, _⟩ => rfl

end Cert.RefValue

end
-- ==== Proof.lean ====
/-
  A two-stage edge classifier over vertex embeddings, against its plain reference, over the extended reals.

  Both programs compute, for every batch b and every pair of vertices (i, j),
    logistic (∑ k, max ((p₁[b,i,k] + p₂[b,j,k]) + c₁[k]) 0 · w[0,k] + c₂[0]),
  where p₁ and p₂ are the projections of the embedding e = logistic (max (x · W₁ᵀ + b₁) 0 · W₂ᵀ + b₂) by the two 64 × 64 column halves of the
  classifier's first-layer weights. The kernel computes the projections one batch at a time in a first region and the classifier one
  tile of 128 rows i at a time in a second; the reference computes everything on whole arrays. The two agree term by term: a matrix
  product into a zero accumulator and a contraction are the same finite sum over the contracted coordinate in the same order, a lane
  sum is that sum, the kernel's logistic function is the reference's 1 / (1 + exp (−·)) on every extended real, and changes of layout
  only rename indices. No law that needs finiteness is used, so the precondition is never opened.

  The kernel's result array is read off its run region by region (each region's result is one whole-array function of what the region
  finds, because its blocks tile the array), the reference's off its run operation by operation; both are the same function of the
  arguments.
-/
import proofs.«146260_j87136296501639_1_alg».proof.Defs
import proofs.«146260_j87136296501639_1_alg».proof.Proof.Gen.Kernel
import proofs.«146260_j87136296501639_1_alg».proof.Proof.Gen.Kernel.Frame
import proofs.«146260_j87136296501639_1_alg».proof.Proof.Gen.KernelIdeal
import proofs.«146260_j87136296501639_1_alg».proof.Proof.Gen.KernelIdeal.Frame
import proofs.«146260_j87136296501639_1_alg».proof.Proof.Gen.ReferenceIdeal
import proofs.«146260_j87136296501639_1_alg».proof.Proof.Gen.ReferenceIdeal.Run
import proofs.«146260_j87136296501639_1_alg».proof.Proof.Gen.ReferenceIdeal.Read
import proofs.«146260_j87136296501639_1_alg».proof.Proof.Gen.Pre_finite_inputs
import proofs.«146260_j87136296501639_1_alg».proof.Proof.KernelValue
import proofs.«146260_j87136296501639_1_alg».proof.Proof.RefValue
import Idealize.ShloMosaic.Adequacy
import Idealize.ShloMosaic.Init

noncomputable section

namespace Cert.Proof

open Idealize.ShloMosaic Idealize.SL.Sem

/-- The word-level kernel terminates without a fault and leaves its arguments as launched. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the same result array: the pair classifier of the two
    projections of the arguments. -/
theorem algebraic : Cert.algebraic_KernelIdeal_ReferenceIdeal := by
  intro m ρ m' ρ' _ hagree
  refine ⟨fun c => Cert.KernelIdeal.Value.result m c, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v38_eq, Cert.RefValue.result_eq, h0, h1, h2, h3, h4, h5, h6, h7, h8]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
